-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S2x640000 : Shape := ⟨2, ![2, 640000]⟩
abbrev S20000 : Shape := ⟨1, ![20000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S128x10 .f32) (main_arg13 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x10 .f32 := Host.absf main_arg12
  let main_cst_18 : FVec F S_ .f32 := constant S_ .f32 0x7F800000#32
  let main_v50 : FVec F S128x10 .f32 := broadcastInDim S128x10 ![] bcast_S_S128x10 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x10 .f32) (main_arg13 : FVec F S10 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S20000x64 .f32) (main_arg1 : IVec S2x640000 32) (main_arg2 : IVec S20000 32) (main_arg3 : FVec F S64x128 .f32) (main_arg4 : FVec F S128 .f32) (main_arg5 : FVec F S64x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x10 .f32) (main_arg13 : FVec F S10 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_v13 main_v16
-- ==== Kernel.lean ====
abbrev S20000x64 : Shape := ⟨2, ![20000, 64]⟩
abbrev S2x640000 : Shape := ⟨2, ![2, 640000]⟩
abbrev S20000 : Shape := ⟨1, ![20000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S20000x128 : Shape := ⟨2, ![20000, 128]⟩
abbrev S2000x64 : Shape := ⟨2, ![2000, 64]⟩
abbrev S2000x128 : Shape := ⟨2, ![2000, 128]⟩
abbrev S1x128 : Shape := ⟨2, ![1, 128]⟩
abbrev S640000x128 : Shape := ⟨2, ![640000, 128]⟩
abbrev S20000x1 : Shape := ⟨2, ![20000, 1]⟩
abbrev S2000x1 : Shape := ⟨2, ![2000, 1]⟩
abbrev S1x10 : Shape := ⟨2, ![1, 10]⟩
abbrev S128x1 : Shape := ⟨2, ![128, 1]⟩

abbrev nBuf : Space → Nat
  | .hbm => 81
  | .vmem => 32
  | .smem => 0
  | _ => 0

abbrev bufTy : (tb : Table) → Fin (tcTables nBuf tb) → BufTy
  | .hbm, ⟨0, _⟩ => ⟨S20000x64, .f32⟩
  | .hbm, ⟨1, _⟩ => ⟨S2x640000, .i32⟩
  | .hbm, ⟨2, _⟩ => ⟨S20000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x10, .f32⟩
  | .hbm, ⟨13, _⟩ => ⟨S10, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x64, .f32⟩
  | .hbm, ⟨27, _⟩ => ⟨S_, .f32⟩
  | .hbm, ⟨28, _⟩ => ⟨S20000x64, .f32⟩
  | .hbm, ⟨29, _⟩ => ⟨S640000x1, .i32⟩
  | .hbm, ⟨30, _⟩ => ⟨S20000x64, .f32⟩
  | .hbm, ⟨31, _⟩ => ⟨S20000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .f32⟩
  | .hbm, ⟨42, _⟩ => ⟨S20000x128, .f32⟩
  | .hbm, ⟨43, _⟩ => ⟨S640000x1, .i32⟩
  | .hbm, ⟨44, _⟩ => ⟨S20000x128, .f32⟩
  | .hbm, ⟨45, _⟩ => ⟨S20000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S20000x128, .f32⟩
  | .hbm, ⟨57, _⟩ => ⟨S640000x1, .i32⟩
  | .hbm, ⟨58, _⟩ => ⟨S20000x128, .f32⟩
  | .hbm, ⟨59, _⟩ => ⟨S20000x128, .f32⟩
  | .hbm, ⟨60, _⟩ => ⟨S20000x1, .i32⟩
  | .hbm, ⟨61, _⟩ => ⟨S128x128, .f32⟩
  | .hbm, ⟨62, _⟩ => ⟨S128x10, .f32⟩
  | .hbm, ⟨63, _⟩ => ⟨S1x10, .f32⟩
  | .hbm, ⟨64, _⟩ => ⟨S128x10, .f32⟩
  | .hbm, ⟨65, _⟩ => ⟨S128x10, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128x1, .f32⟩
  | .hbm, ⟨72, _⟩ => ⟨S128x10, .f32⟩
  | .hbm, ⟨73, _⟩ => ⟨S128x10, .f32⟩
  | .hbm, ⟨74, _⟩ => ⟨S128x10, .f32⟩
  | .hbm, ⟨75, _⟩ => ⟨S_, .f32⟩
  | .hbm, ⟨76, _⟩ => ⟨S128, .f32⟩
  | .hbm, ⟨77, _⟩ => ⟨S128x1, .f32⟩
  | .hbm, ⟨78, _⟩ => ⟨S128x1, .f32⟩
  | .hbm, ⟨79, _⟩ => ⟨S128x10, .f32⟩
  | .hbm, ⟨80, _⟩ => ⟨S128x10, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | .local _ .vmem, ⟨27, _⟩ => ⟨S2000x1, .i32⟩
  | .local _ .vmem, ⟨28, _⟩ => ⟨S2000x1, .i32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call0_cst : Ref sig .tc := ⟨.hbm, 66, rfl⟩
abbrev main_call0_v0 : Ref sig .tc := ⟨.hbm, 67, rfl⟩
abbrev main_call0_cst_0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_cst_1 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_v43 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x64 : S_.BroadcastsInDim S20000x64 (![] : Fin 0 → Fin S20000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S20000x128 : S_.BroadcastsInDim S20000x128 (![] : Fin 0 → Fin S20000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S20000_S20000x1 : S20000.ShapeCasts S20000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  shapeCasts_S128x128_S128x128 : S128x128.ShapeCasts S128x128
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1
  dot_S2000x64_S64x128_S2000x128_1_0_0_1_n_n_wf : DotDims.WF S2000x64 S64x128 S2000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S20000x64.size a
  hwx0_0 : ∀ i : grid0.Coords, EltTy.bits .f32 = 32 ∨ (Rect.block (s := S20000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S20000x64.size a
  hwx0_1 : ∀ i : grid0.Coords, EltTy.bits .f32 = 32 ∨ (Rect.block (s := S20000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S20000x128.size a
  hwx1_5 : ∀ i : grid1.Coords, EltTy.bits .f32 = 32 ∨ (Rect.block (s := S20000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S20000x1.size a
  hwx3_0 : ∀ i : grid3.Coords, EltTy.bits .i32 = 32 ∨ (Rect.block (s := S20000x1) S2000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S20000x128.size a
  hwx3_1 : ∀ i : grid3.Coords, EltTy.bits .f32 = 32 ∨ (Rect.block (s := S20000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v13) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S128x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S20000x64 : Shape := ⟨2, ![20000, 64]⟩
abbrev S2x640000 : Shape := ⟨2, ![2, 640000]⟩
abbrev S20000 : Shape := ⟨1, ![20000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S20000x128 : Shape := ⟨2, ![20000, 128]⟩
abbrev S1x128 : Shape := ⟨2, ![1, 128]⟩
abbrev S640000x128 : Shape := ⟨2, ![640000, 128]⟩
abbrev S20000x1 : Shape := ⟨2, ![20000, 1]⟩
abbrev S1x10 : Shape := ⟨2, ![1, 10]⟩
abbrev S128x1 : Shape := ⟨2, ![128, 1]⟩

abbrev nBuf : Space → Nat
  | .hbm => 107
  | .vmem => 0
  | .smem => 0
  | _ => 0

abbrev bufTy : (tb : Table) → Fin (tcTables nBuf tb) → BufTy
  | .hbm, ⟨0, _⟩ => ⟨S20000x64, .f32⟩
  | .hbm, ⟨1, _⟩ => ⟨S2x640000, .i32⟩
  | .hbm, ⟨2, _⟩ => ⟨S20000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x10, .f32⟩
  | .hbm, ⟨13, _⟩ => ⟨S10, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x64, .f32⟩
  | .hbm, ⟨27, _⟩ => ⟨S_, .f32⟩
  | .hbm, ⟨28, _⟩ => ⟨S20000x64, .f32⟩
  | .hbm, ⟨29, _⟩ => ⟨S640000x1, .i32⟩
  | .hbm, ⟨30, _⟩ => ⟨S20000x64, .f32⟩
  | .hbm, ⟨31, _⟩ => ⟨S20000x128, .f32⟩
  | .hbm, ⟨32, _⟩ => ⟨S1x128, .f32⟩
  | .hbm, ⟨33, _⟩ => ⟨S20000x128, .f32⟩
  | .hbm, ⟨34, _⟩ => ⟨S20000x128, .f32⟩
  | .hbm, ⟨35, _⟩ => ⟨S20000x128, .f32⟩
  | .hbm, ⟨36, _⟩ => ⟨S20000x128, .f32⟩
  | .hbm, ⟨37, _⟩ => ⟨S_, .f32⟩
  | .hbm, ⟨38, _⟩ => ⟨S20000x128, .f32⟩
  | .hbm, ⟨39, _⟩ => ⟨S20000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S20000x128, .f32⟩
  | .hbm, ⟨51, _⟩ => ⟨S640000x1, .i32⟩
  | .hbm, ⟨52, _⟩ => ⟨S20000x128, .f32⟩
  | .hbm, ⟨53, _⟩ => ⟨S20000x128, .f32⟩
  | .hbm, ⟨54, _⟩ => ⟨S1x128, .f32⟩
  | .hbm, ⟨55, _⟩ => ⟨S20000x128, .f32⟩
  | .hbm, ⟨56, _⟩ => ⟨S20000x128, .f32⟩
  | .hbm, ⟨57, _⟩ => ⟨S20000x128, .f32⟩
  | .hbm, ⟨58, _⟩ => ⟨S20000x128, .f32⟩
  | .hbm, ⟨59, _⟩ => ⟨S_, .f32⟩
  | .hbm, ⟨60, _⟩ => ⟨S20000x128, .f32⟩
  | .hbm, ⟨61, _⟩ => ⟨S20000x128, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x128, .f32⟩
  | .hbm, ⟨71, _⟩ => ⟨S_, .f32⟩
  | .hbm, ⟨72, _⟩ => ⟨S20000x128, .f32⟩
  | .hbm, ⟨73, _⟩ => ⟨S640000x1, .i32⟩
  | .hbm, ⟨74, _⟩ => ⟨S20000x128, .f32⟩
  | .hbm, ⟨75, _⟩ => ⟨S20000x128, .f32⟩
  | .hbm, ⟨76, _⟩ => ⟨S1x128, .f32⟩
  | .hbm, ⟨77, _⟩ => ⟨S20000x128, .f32⟩
  | .hbm, ⟨78, _⟩ => ⟨S20000x128, .f32⟩
  | .hbm, ⟨79, _⟩ => ⟨S20000x128, .f32⟩
  | .hbm, ⟨80, _⟩ => ⟨S20000x128, .f32⟩
  | .hbm, ⟨81, _⟩ => ⟨S_, .f32⟩
  | .hbm, ⟨82, _⟩ => ⟨S20000x128, .f32⟩
  | .hbm, ⟨83, _⟩ => ⟨S20000x128, .f32⟩
  | .hbm, ⟨84, _⟩ => ⟨S_, .f32⟩
  | .hbm, ⟨85, _⟩ => ⟨S128x128, .f32⟩
  | .hbm, ⟨86, _⟩ => ⟨S20000x1, .i32⟩
  | .hbm, ⟨87, _⟩ => ⟨S128x128, .f32⟩
  | .hbm, ⟨88, _⟩ => ⟨S128x10, .f32⟩
  | .hbm, ⟨89, _⟩ => ⟨S1x10, .f32⟩
  | .hbm, ⟨90, _⟩ => ⟨S128x10, .f32⟩
  | .hbm, ⟨91, _⟩ => ⟨S128x10, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128x1, .f32⟩
  | .hbm, ⟨98, _⟩ => ⟨S128x10, .f32⟩
  | .hbm, ⟨99, _⟩ => ⟨S128x10, .f32⟩
  | .hbm, ⟨100, _⟩ => ⟨S128x10, .f32⟩
  | .hbm, ⟨101, _⟩ => ⟨S_, .f32⟩
  | .hbm, ⟨102, _⟩ => ⟨S128, .f32⟩
  | .hbm, ⟨103, _⟩ => ⟨S128x1, .f32⟩
  | .hbm, ⟨104, _⟩ => ⟨S128x1, .f32⟩
  | .hbm, ⟨105, _⟩ => ⟨S128x10, .f32⟩
  | .hbm, ⟨106, _⟩ => ⟨S128x10, .f32⟩
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call3_cst : Ref sig .tc := ⟨.hbm, 92, rfl⟩
abbrev main_call3_v0 : Ref sig .tc := ⟨.hbm, 93, rfl⟩
abbrev main_call3_cst_0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_cst_1 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_v62 : Ref sig .tc := ⟨.hbm, 106, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x64 : S_.BroadcastsInDim S20000x64 (![] : Fin 0 → Fin S20000x64.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S128x128 : S_.BroadcastsInDim S128x128 (![] : Fin 0 → Fin S128x128.rank)
  bcast_S20000_S20000x1_0 : S20000.BroadcastsInDim S20000x1 (![0] : Fin 1 → Fin S20000x1.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1
  dot_S20000x64_S64x128_S20000x128_1_0_0_1_n_n_wf : DotDims.WF S20000x64 S64x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x128_S20000x128_1_0_0_1_n_n_wf : DotDims.WF S20000x128 S128x128 S20000x128 [1] [0] [0] [1] [] []
  scatter_S128x128_S20000x1_S20000x128_1_0_0_1_wf : ScatterDims.WF S128x128 S20000x1 S20000x128 [1] [0] [0] 1
  dot_S128x128_S128x10_S128x10_1_0_0_1_n_n_wf : DotDims.WF S128x128 S128x10 S128x10 [1] [0] [0] [1] [] []

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S128x128_S20000x1_S20000x128_1_0_0_1 : ScatterDims S128x128 S20000x1 S20000x128 where
  updateWindowDims := [1]
  insertedWindowDims := [0]
  scatterDimsToOperandDims := [0]
  indexVectorDim := 1
  wf := scatter_S128x128_S20000x1_S20000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.Chain.lean ====
/-
  The host-side pieces both programs share, named once so that no proof ever opens them.

  `srcIdx` / `dstIdx`: the edge list's two rows as index columns — the source row with a negative id wrapped by
  adding 20000 (numpy's negative indexing), the target row as it is.
  `agg64` / `agg128`: the neighbourhood sum of a feature array, `agg[i] = ∑_{edges (j → i)} x[j]`: the rows of `x` the
  sources name are gathered, then added into the rows the targets name, starting from zero.
  `logits` and `logSoftmax`: the classifier on the pooled features, `pooled · w + b`, and the row-wise
  `z − max z − log ∑ exp (z − max z)`.
  Each is the composition of host operations exactly as the kernel's program applies them; the reference applies the
  same operations, so once the values going in are equal the values coming out are.
-/
import proofs.«427853_j39633958208177_1_alg».proof.Proof.Gen.KernelIdeal
import Idealize.ShloMosaic.PureOps.Ideal

noncomputable section

open Idealize.ShloMosaic Cert.KernelIdeal Cert.KernelIdeal.Gen

namespace Cert.Model

/-- The edges' source ids as a column, a negative id `s` read as `s + 20000`. -/
def srcIdx (ei : IVec S2x640000 32) : IVec S640000x1 32 :=
  broadcastInDim S640000x1 ![0] bcast_S640000_S640000x1_0
    (select
      (cmpi .slt (shapeCast S640000 (extractStridedSlice S1x640000 ![0, 0] ei slices_S2x640000_S1x640000_0_0) shapeCasts_S1x640000_S640000)
        (broadcastInDim S640000 ![] bcast_S_S640000 (constantI S_ 32 0#32)))
      (addi (shapeCast S640000 (extractStridedSlice S1x640000 ![0, 0] ei slices_S2x640000_S1x640000_0_0) shapeCasts_S1x640000_S640000)
        (broadcastInDim S640000 ![] bcast_S_S640000 (constantI S_ 32 20000#32)))
      (shapeCast S640000 (extractStridedSlice S1x640000 ![0, 0] ei slices_S2x640000_S1x640000_0_0) shapeCasts_S1x640000_S640000))

/-- The edges' target ids as a column. -/
def dstIdx (ei : IVec S2x640000 32) : IVec S640000x1 32 :=
  broadcastInDim S640000x1 ![0] bcast_S640000_S640000x1_0
    (shapeCast S640000 (extractStridedSlice S1x640000 ![1, 0] ei slices_S2x640000_S1x640000_1_0) shapeCasts_S1x640000_S640000)

/-- The neighbourhood sum of a 64-feature array. -/
def agg64 (x : FVec Ideal S20000x64 .f32) (ei : IVec S2x640000 32) : FVec Ideal S20000x64 .f32 :=
  Host.scatterAdd scatter_S20000x64_S640000x1_S640000x64_1_0_0_1
    (broadcastInDim S20000x64 ![] bcast_S_S20000x64 (constant S_ .f32 0x00000000#32))
    (dstIdx ei)
    (Host.gather gather_S20000x64_S640000x1_S640000x64_1_0_n_n_0_1_164 x (srcIdx ei))

/-- The neighbourhood sum of a 128-feature array. -/
def agg128 (h : FVec Ideal S20000x128 .f32) (ei : IVec S2x640000 32) : FVec Ideal S20000x128 .f32 :=
  Host.scatterAdd scatter_S20000x128_S640000x1_S640000x128_1_0_0_1
    (broadcastInDim S20000x128 ![] bcast_S_S20000x128 (constant S_ .f32 0x00000000#32))
    (dstIdx ei)
    (Host.gather gather_S20000x128_S640000x1_S640000x128_1_0_n_n_0_1_1128 h (srcIdx ei))

/-- The classifier's scores: `pooled · w + b`, the bias broadcast over the graphs. -/
def logits (p : FVec Ideal S128x128 .f32) (w : FVec Ideal S128x10 .f32) (b : FVec Ideal S10 .f32) : FVec Ideal S128x10 .f32 :=
  addf (Host.dotGeneral dot_S128x128_S128x10_S128x10_1_0_0_1_n_n none p w)
    (broadcastInDim S128x10 ![0, 1] bcast_S1x10_S128x10_0_1 (broadcastInDim S1x10 ![1] bcast_S10_S1x10_1 b))

/-- Scores shifted by their row maximum (the maximum taken against `-∞`). -/
def shifted (z : FVec Ideal S128x10 .f32) : FVec Ideal S128x10 .f32 :=
  subf z
    (broadcastInDim S128x10 ![0, 1] bcast_S128x1_S128x10_0_1
      (broadcastInDim S128x1 ![0] bcast_S128_S128x1_0
        (maximumf (broadcastInDim S128 ![] bcast_S_S128 (constant S_ .f32 0xFF800000#32))
          (Host.reduce FloatOps.maximumf z (constant S_ .f32 0xFF800000#32) reducesTo_S128x10_S128_d1 h_S_))))

/-- The row-wise log-softmax: `s − log ∑ exp s` of the shifted scores `s`. -/
def logSoftmax (z : FVec Ideal S128x10 .f32) : FVec Ideal S128x10 .f32 :=
  subf (shifted z)
    (broadcastInDim S128x10 ![0, 1] bcast_S128x1_S128x10_0_1
      (Host.log
        (broadcastInDim S128x1 ![0] bcast_S128_S128x1_0
          (Host.reduceAdd (Host.exp (shifted z)) (constant S_ .f32 0x00000000#32) reducesTo_S128x10_S128_d1 h_S_))))

end Cert.Model

end
-- ==== Proof.Spec.lean ====
/-
  The mathematics both programs compute, stated once over plain index functions on the extended reals.

  A graph-convolution layer at node `n`, output feature `j`:
      max ( (∑ₖ agg[n,k] · wrel[k,j]  +  ∑ₖ x[n,k] · wroot[k,j])  +  b[j] ,  0 ),
  where `agg` is the neighbourhood sum of `x` (a gather followed by a scatter-add, the same host operations in both
  programs, so it is carried as a value and never opened here).  The reference adds the bias BEFORE the root term,
  `(∑ agg·wrel + b) + ∑ x·wroot`; addition of extended reals is commutative and associative, so the two groupings
  agree at every input (`add_right_comm`), infinite sums included.

  The global add-pool of graph `g`, feature `j`:  ∑ₙ [batch n = g] · h[n,j].
  The kernel computes it block by block (ten blocks of 2000 nodes), each block a one-hot matrix product, accumulated
  left to right from zero; the reference as a scatter-add, which sums exactly the rows whose graph id is `g`.
  The facts used: a left-nested accumulation is the sum over its terms (`accUpTo_eq_sum`), and a sum over
  20000 consecutive naturals splits into ten runs of 2000 (`sum_blocks`).
-/
import Idealize.ShloMosaic.PureOps.Ideal
import Idealize.ShloMosaic.Lib.ValueIdx
import Mathlib.Algebra.BigOperators.Intervals
import Mathlib.Algebra.BigOperators.Fin

noncomputable section

open Idealize.ShloMosaic Idealize.ShloMosaic.ValueIdx

namespace Cert.GraphSpec

/-! ## One layer -/

/-- A layer with 64 input features, at node `n` and output feature `j` (the kernel's grouping of the three terms). -/
def denseAt64 (agg x : (⟨2, ![20000, 64]⟩ : Shape).Idx → EReal) (wrel wroot : (⟨2, ![64, 128]⟩ : Shape).Idx → EReal)
    (b : (⟨1, ![128]⟩ : Shape).Idx → EReal) (n : Fin 20000) (j : Fin 128) : EReal :=
  max ((∑ k : Fin 64, agg (ix2 n k) * wrel (ix2 k j) + ∑ k : Fin 64, x (ix2 n k) * wroot (ix2 k j)) + b (ix1 j)) 0

/-- The layer's whole output array. -/
def dense64 (agg x : (⟨2, ![20000, 64]⟩ : Shape).Idx → EReal) (wrel wroot : (⟨2, ![64, 128]⟩ : Shape).Idx → EReal)
    (b : (⟨1, ![128]⟩ : Shape).Idx → EReal) : (⟨2, ![20000, 128]⟩ : Shape).Idx → EReal :=
  fun i => denseAt64 agg x wrel wroot b (i 0) (i 1)

/-- A layer with 128 input features, at node `n` and output feature `j`. -/
def denseAt128 (agg x : (⟨2, ![20000, 128]⟩ : Shape).Idx → EReal) (wrel wroot : (⟨2, ![128, 128]⟩ : Shape).Idx → EReal)
    (b : (⟨1, ![128]⟩ : Shape).Idx → EReal) (n : Fin 20000) (j : Fin 128) : EReal :=
  max ((∑ k : Fin 128, agg (ix2 n k) * wrel (ix2 k j) + ∑ k : Fin 128, x (ix2 n k) * wroot (ix2 k j)) + b (ix1 j)) 0

/-- The layer's whole output array. -/
def dense128 (agg x : (⟨2, ![20000, 128]⟩ : Shape).Idx → EReal) (wrel wroot : (⟨2, ![128, 128]⟩ : Shape).Idx → EReal)
    (b : (⟨1, ![128]⟩ : Shape).Idx → EReal) : (⟨2, ![20000, 128]⟩ : Shape).Idx → EReal :=
  fun i => denseAt128 agg x wrel wroot b (i 0) (i 1)

/-- The reference's grouping, bias before the root term, is the same extended real. -/
theorem bias_first (a r b : EReal) : (a + b) + r = (a + r) + b := add_right_comm a b r

/-! ## The pool -/

/-- Node `n`'s contribution to graph `g`'s pooled feature `j`: the feature when the node's graph id is `g`, else zero. -/
def poolTerm (bat : Fin 20000 → BitVec 32) (h : (⟨2, ![20000, 128]⟩ : Shape).Idx → EReal) (g j : Fin 128) (n : Fin 20000) : EReal :=
  if bat n = BitVec.ofNat 32 g.val then h (ix2 n j) else 0

/-- The pooled feature: the sum over all nodes of their contributions. -/
def poolAt (bat : Fin 20000 → BitVec 32) (h : (⟨2, ![20000, 128]⟩ : Shape).Idx → EReal) (g j : Fin 128) : EReal :=
  ∑ n : Fin 20000, poolTerm bat h g j n

/-- The pooled array. -/
def pool (bat : Fin 20000 → BitVec 32) (h : (⟨2, ![20000, 128]⟩ : Shape).Idx → EReal) : (⟨2, ![128, 128]⟩ : Shape).Idx → EReal :=
  fun i => poolAt bat h (i 0) (i 1)

/-! ## Sums accumulated block by block -/

/-- A running total started from zero: `0 + B 0`, then `+ B 1`, … up to `B n`, nested to the left as a loop computes it. -/
def accUpTo {M : Type*} [AddCommMonoid M] (B : ℕ → M) : ℕ → M
  | 0 => 0 + B 0
  | n + 1 => accUpTo B n + B (n + 1)

/-- The running total after term `n` is the sum of the terms `0 … n`. -/
theorem accUpTo_eq_sum {M : Type*} [AddCommMonoid M] (B : ℕ → M) (n : ℕ) :
    accUpTo B n = ∑ s ∈ Finset.range (n + 1), B s := by
  induction n with
  | zero => simp [accUpTo]
  | succ n ih => rw [accUpTo, ih, Finset.sum_range_succ _ (n + 1)]

/-- A sum over the first `w · (n + 1)` naturals is the sum over the first `w · n` plus the next run of `w`. -/
theorem sum_range_mul_succ {M : Type*} [AddCommMonoid M] (f : ℕ → M) (w n : ℕ) :
    ∑ q ∈ Finset.range (w * (n + 1)), f q = ∑ q ∈ Finset.range (w * n), f q + ∑ r ∈ Finset.range w, f (w * n + r) := by
  rw [Nat.mul_succ, Finset.sum_range_add]

/-- Runs of equal width laid end to end: the sum over `N` runs of width `w` is the sum over the first `w · N` naturals. -/
theorem sum_blocks {M : Type*} [AddCommMonoid M] (f : ℕ → M) (w N : ℕ) :
    ∑ s ∈ Finset.range N, ∑ r ∈ Finset.range w, f (w * s + r) = ∑ q ∈ Finset.range (w * N), f q := by
  induction N with
  | zero => simp
  | succ N ih => rw [Finset.sum_range_succ, ih, sum_range_mul_succ]

end Cert.GraphSpec

end
-- ==== Proof.Model.lean ====
/-
  The whole network as one function of its fourteen arguments:
  three graph-convolution layers (each: neighbourhood sum, two matrix products, bias, relu), the global add-pool over the
  graphs, the linear classifier and the row-wise log-softmax.  Both programs' results are shown equal to this term.
-/
import proofs.«427853_j39633958208177_1_alg».proof.Proof.Chain
import proofs.«427853_j39633958208177_1_alg».proof.Proof.Spec

noncomputable section

open Idealize.ShloMosaic Idealize.ShloMosaic.ValueIdx Cert.KernelIdeal Cert.GraphSpec

namespace Cert.Model

/-- Layer 1's activations: 64 input features. -/
def h1 (x : FVec Ideal S20000x64 .f32) (ei : IVec S2x640000 32) (w1rel : FVec Ideal S64x128 .f32) (b1 : FVec Ideal S128 .f32)
    (w1root : FVec Ideal S64x128 .f32) : FVec Ideal S20000x128 .f32 :=
  dense64 (agg64 x ei) x w1rel w1root b1

/-- A 128-feature layer's activations from the previous layer's. -/
def hNext (h : FVec Ideal S20000x128 .f32) (ei : IVec S2x640000 32) (wrel : FVec Ideal S128x128 .f32) (b : FVec Ideal S128 .f32)
    (wroot : FVec Ideal S128x128 .f32) : FVec Ideal S20000x128 .f32 :=
  dense128 (agg128 h ei) h wrel wroot b

/-- The pooled features of the last layer's activations, per graph. -/
def pooled (batch : IVec S20000 32) (h : FVec Ideal S20000x128 .f32) : FVec Ideal S128x128 .f32 :=
  pool (fun n => batch (ix1 n)) h

/-- The network's output. -/
def net (x : FVec Ideal S20000x64 .f32) (ei : IVec S2x640000 32) (batch : IVec S20000 32)
    (w1rel : FVec Ideal S64x128 .f32) (b1 : FVec Ideal S128 .f32) (w1root : FVec Ideal S64x128 .f32)
    (w2rel : FVec Ideal S128x128 .f32) (b2 : FVec Ideal S128 .f32) (w2root : FVec Ideal S128x128 .f32)
    (w3rel : FVec Ideal S128x128 .f32) (b3 : FVec Ideal S128 .f32) (w3root : FVec Ideal S128x128 .f32)
    (wout : FVec Ideal S128x10 .f32) (bout : FVec Ideal S10 .f32) : FVec Ideal S128x10 .f32 :=
  logSoftmax (logits (pooled batch (hNext (hNext (h1 x ei w1rel b1 w1root) ei w2rel b2 w2root) ei w3rel b3 w3root)) wout bout)

end Cert.Model

end
-- ==== Proof.LayerValue0.lean ====
/-
  Region 0 of the kernel's program: what its output array holds after the region, as one function of the arrays it read.

  The region's grid has ten points; point `t` reads rows `2000 t … 2000 t + 1999` of the neighbourhood sums and of the
  node features, the two 64 × 128 weight matrices and the bias whole, and writes rows `2000 t … 2000 t + 1999` of the
  output. At row `p` of its block and output feature `q` it computes
      max ( (∑ₖ agg[p,k] · wrel[k,q]  +  ∑ₖ x[p,k] · wroot[k,q])  +  b[q] ,  0 ):
  each block product, accumulated from zero, is the sum over the 64 shared coordinates of the products; the bias is a
  row of 128 entries laid over the 2000 rows; the cut-off is the maximum with the constant zero.
  Row `p` of block `t` is node `2000 t + p`, so the block written back is block `t` of the layer's activations; node
  `r` lies in the block of point `r / 2000`, so the ten blocks cover the array, which therefore ends holding the layer's
  activations everywhere.
-/
import proofs.«427853_j39633958208177_1_alg».proof.Proof.Gen.KernelIdeal.Frame
import proofs.«427853_j39633958208177_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen Cert.GraphSpec

namespace Cert.KernelIdeal.LayerValue0

variable (V : (c : Dev nD) → (b : Ref sig .tc) → Buf (Elt Ideal) ((c : Thread nD τ).loc b))

/-! ## The block product at an index -/

/-- The product's left operand is read at the output's row … -/
theorem lhs_row (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- … and at the contracted coordinate; -/
theorem lhs_contr (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- the right operand at the contracted coordinate … -/
theorem rhs_contr (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- … and at the output's column. -/
theorem rhs_col (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A block of 2000 rows times a 64 × 128 matrix, accumulated from zero, at row `p` and column `q`: the sum over the 64
    shared coordinates of the products. -/
theorem block_product_apply (x : FVec Ideal S2000x64 .f32) (w : FVec Ideal S64x128 .f32) (p : Fin 2000) (q : Fin 128) :
    matmul (F := Ideal) dot_S2000x64_S64x128_S2000x128_1_0_0_1_n_n none x w (constant (F := Ideal) S2000x128 .f32 0x00000000#32) (ix2 p q)
      = ∑ k : Fin 64, x (ix2 p k) * w (ix2 k q) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun a => Fin.ext (by
    match a with
    | ⟨0, _⟩ => exact lhs_row _ _
    | ⟨1, _⟩ => exact (lhs_contr _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun a => Fin.ext (by
    match a with
    | ⟨0, _⟩ => exact (rhs_contr _ _).trans hk
    | ⟨1, _⟩ => exact rhs_col _ _)
  rw [el, er]

/-! ## The bias row over the block -/

/-- The bias, a row of 128 entries laid over the block's 2000 rows, reads its entry at the column. -/
theorem bias_rows_apply (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_1b_ab_apply _ broadcasts_S1x128_S2000x128 p q).trans ?_
  refine (shapeCast_addUnit_apply ![128] b shapeCasts_S128_S1x128 (ix2 (0 : Fin 1) q)).trans ?_
  exact congrArg b (funext fun a => by match a with | ⟨0, _⟩ => rfl)

/-! ## The body's value at an index -/

/-- What one grid point computes from its blocks, at row `p` of the block and output feature `q`: the two products
    added, the bias added, cut off below at zero. -/
theorem body_apply (x0 x1 : Vec Ideal S2000x64 .f32) (x2 x3 : Vec Ideal S64x128 .f32) (x4 : Vec Ideal S128 .f32)
    (p : Fin 2000) (q : Fin 128) :
    k0_pay1 x0 x1 x2 x3 x4 (ix2 p q)
      = max ((∑ k : Fin 64, x0 (ix2 p k) * x2 (ix2 k q) + ∑ k : Fin 64, x1 (ix2 p k) * x3 (ix2 k q)) + x4 (ix1 q)) 0 := by
  unfold k0_pay1
  rw [shapeCast_self]
  refine (maximumf_apply _ _ _).trans ?_
  refine congrArg₂ max ?_ ?_
  · refine (addf_apply _ _ _).trans ?_
    refine congrArg₂ (· + ·) ?_ (bias_rows_apply x4 p q)
    refine (addf_apply _ _ _).trans ?_
    exact congrArg₂ (· + ·) (block_product_apply x0 x2 p q) (block_product_apply x1 x3 p q)
  · exact Ideal.ofBits_zero_f32

/-! ## From the blocks to the arrays -/

/-- Zero offsets on two axes, as one constant function. -/
theorem zero_offsets2 : (![0, 0] : Fin 2 → Nat) = fun _ => 0 := funext fun a => by fin_cases a <;> rfl
/-- Zero offset on one axis, as one constant function. -/
theorem zero_offsets1 : (![0] : Fin 1 → Nat) = fun _ => 0 := funext fun a => by fin_cases a <;> rfl

/-- Where each window's block lies at grid point `t`: the two row-blocked inputs and the output at row block `t`,
    the weights and the bias whole. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The neighbourhood sums' block at point `t` is rows `2000 t … 2000 t + 1999` of the array. -/
theorem agg_block_apply (c : Dev nD) (t : Fin cfg0.N) (p : Fin 2000) (k : Fin 64) (n : Fin 20000)
    (hn : n.val = 2000 * t.val + p.val) :
    (iblk0 V c 0 t : Vec Ideal S2000x64 .f32) (ix2 p k) = (V c main_v13 : S20000x64.Idx → EReal) (ix2 n k) := by
  obtain ⟨e0, e1, -⟩ := block_indices t
  unfold iblk0
  rw [View.read_apply]
  show V c main_v13 _ = V c main_v13 _
  congr 1
  funext a
  apply Fin.ext
  match a with
  | ⟨0, _⟩ => show win0_0.index t (0 : Fin 2) * 2000 + 1 * p.val = n.val; omega
  | ⟨1, _⟩ => show win0_0.index t (1 : Fin 2) * 64 + 1 * k.val = k.val; omega

/-- The node features' block at point `t` is the same rows of their array. -/
theorem feat_block_apply (c : Dev nD) (t : Fin cfg0.N) (p : Fin 2000) (k : Fin 64) (n : Fin 20000)
    (hn : n.val = 2000 * t.val + p.val) :
    (iblk0 V c 1 t : Vec Ideal S2000x64 .f32) (ix2 p k) = (V c main_arg0 : S20000x64.Idx → EReal) (ix2 n k) := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t (0 : Fin 2) * 2000 + 1 * p.val = n.val; omega
  | ⟨1, _⟩ => show win0_1.index t (1 : Fin 2) * 64 + 1 * k.val = k.val; omega

/-- The first weight matrix is read whole at every point. -/
theorem wrel_block_apply (c : Dev nD) (t : Fin cfg0.N) (k : Fin 64) (q : Fin 128) :
    (iblk0 V c 2 t : Vec Ideal S64x128 .f32) (ix2 k q) = (V c main_arg3 : S64x128.Idx → EReal) (ix2 k q) := by
  obtain ⟨-, -, -, -, e0, e1, -⟩ := block_indices t
  unfold iblk0
  rw [View.read_apply]
  show V c main_arg3 _ = V c main_arg3 _
  congr 1
  funext a
  apply Fin.ext
  match a with
  | ⟨0, _⟩ => show win0_2.index t (0 : Fin 2) * 64 + 1 * k.val = k.val; omega
  | ⟨1, _⟩ => show win0_2.index t (1 : Fin 2) * 128 + 1 * q.val = q.val; omega

/-- So is the second. -/
theorem wroot_block_apply (c : Dev nD) (t : Fin cfg0.N) (k : Fin 64) (q : Fin 128) :
    (iblk0 V c 3 t : Vec Ideal S64x128 .f32) (ix2 k q) = (V c main_arg5 : S64x128.Idx → EReal) (ix2 k q) := by
  obtain ⟨-, -, -, -, -, -, e0, e1, -⟩ := block_indices t
  unfold iblk0
  rw [View.read_apply]
  show V c main_arg5 _ = V c main_arg5 _
  congr 1
  funext a
  apply Fin.ext
  match a with
  | ⟨0, _⟩ => show win0_3.index t (0 : Fin 2) * 64 + 1 * k.val = k.val; omega
  | ⟨1, _⟩ => show win0_3.index t (1 : Fin 2) * 128 + 1 * q.val = q.val; omega

/-- And the bias. -/
theorem bias_block_apply (c : Dev nD) (t : Fin cfg0.N) (q : Fin 128) :
    (iblk0 V c 4 t : Vec Ideal S128 .f32) (ix1 q) = (V c main_arg4 : S128.Idx → EReal) (ix1 q) := by
  obtain ⟨-, -, -, -, -, -, -, -, e0, -⟩ := block_indices t
  unfold iblk0
  rw [View.read_apply]
  show V c main_arg4 _ = V c main_arg4 _
  congr 1
  funext a
  apply Fin.ext
  match a with
  | ⟨0, _⟩ => show win0_4.index t (0 : Fin 1) * 128 + 1 * q.val = q.val; omega

/-- What point `t` computes at an index of its block is the layer's activation at the node the index names:
    row `p` of block `t` is node `2000 t + p`. -/
theorem point_value (c : Dev nD) (t : Fin cfg0.N) (j : S2000x128.Idx) (n : Fin 20000) (q : Fin 128)
    (hn : n.val = 2000 * t.val + (j 0).val) (hq : q.val = (j 1).val) :
    k0_pay1 (iblk0 V c 0 t) (iblk0 V c 1 t) (iblk0 V c 2 t) (iblk0 V c 3 t) (iblk0 V c 4 t) j
      = denseAt64 (V c main_v13) (V c main_arg0) (V c main_arg3) (V c main_arg5) (V c main_arg4) n q := by
  obtain ⟨p, q', rfl⟩ : ∃ (p : Fin 2000) (q' : Fin 128), j = ix2 p q' := ⟨j 0, j 1, eq_ix2 j⟩
  obtain rfl : q = q' := Fin.ext hq
  refine (body_apply _ _ _ _ _ p q).trans ?_
  unfold denseAt64
  refine congrArg₂ max (congrArg₂ (· + ·) (congrArg₂ (· + ·) (Finset.sum_congr rfl fun k _ => ?_) (Finset.sum_congr rfl fun k _ => ?_)) (bias_block_apply V c t q)) rfl
  · exact congrArg₂ (· * ·) (agg_block_apply V c t p k n hn) (wrel_block_apply V c t k q)
  · exact congrArg₂ (· * ·) (feat_block_apply V c t p k n hn) (wroot_block_apply V c t k q)

/-- What point `t` writes back is block `t` of the layer's activations of the arrays the region found. -/
theorem flushed_eq (c : Dev nD) (t : Fin cfg0.N) :
    (dat0 (F := Ideal) V c).flushed 5 t
      = ((cfg0.win 5).blk t).view.read (Elt Ideal)
          (dense64 (V c main_v13) (V c main_arg0) (V c main_arg3) (V c main_arg5) (V c main_arg4) : FVec Ideal S20000x128 .f32) := by
  show (cfg0.win 5).cut (grid0.coords t) ((dat0 (F := Ideal) V c).after 5 t) = _
  rw [after0_5]
  unfold out0_5
  rw [View.canon_unit_zero zero_offsets2]
  simp only [View.ld_unit_zero (S := S2000x64) zero_offsets2, View.ld_unit_zero (S := S64x128) zero_offsets2, View.ld_unit_zero (S := S128) zero_offsets1]
  funext j
  obtain ⟨-, -, -, -, -, -, -, -, -, o0, o1⟩ := block_indices t
  show k0_pay1 (iblk0 V c 0 t) (iblk0 V c 1 t) (iblk0 V c 2 t) (iblk0 V c 3 t) (iblk0 V c 4 t) j
    = denseAt64 (V c main_v13) (V c main_arg0) (V c main_arg3) (V c main_arg5) (V c main_arg4)
        ((((cfg0.win 5).blk t).view.emb j) 0) ((((cfg0.win 5).blk t).view.emb j) 1)
  exact point_value V c t j _ _
    (by show win0_5.index t (0 : Fin 2) * 2000 + 1 * (j 0).val = _; omega)
    (by show win0_5.index t (1 : Fin 2) * 128 + 1 * (j 1).val = _; omega)

/-- An index of the output array is in point `t`'s block iff each coordinate is in the block's range on its axis. -/
theorem mem_block (t : Fin cfg0.N) (i : S20000x128.Idx) :
    i ∈ ((cfg0.win 5).blk t).view.set
      ↔ ∀ a : Fin 2, win0_5.index t a * S2000x128.size a ≤ (i a).val ∧ (i a).val < win0_5.index t a * S2000x128.size a + S2000x128.size a := by
  show i ∈ ((View.whole main_v14).slice (win0_5.rect t)).set ↔ _
  rw [View.set_slice_whole, Rect.mem_set_unit]
  exact Iff.rfl

/-- Every node's row is in some point's block: node `r` in that of point `r / 2000`. -/
theorem covered (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨-, -, -, -, -, -, -, -, -, o0, o1⟩ := block_indices t
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After region 0 its output array is the layer's activations of the arrays the region found: the neighbourhood sums
    `main_v13`, the node features `main_arg0`, the two weight matrices and the bias. -/
theorem final (c : Dev nD) :
    (dat0 (F := Ideal) V c).arrAt 5 cfg0.N
      = (dense64 (V c main_v13) (V c main_arg0) (V c main_arg3) (V c main_arg5) (V c main_arg4) : FVec Ideal S20000x128 .f32) :=
  (dat0 (F := Ideal) V c).arrAt_eq_of_cover 5 _ (fun t _ => flushed_eq V c t) covered

end Cert.KernelIdeal.LayerValue0

end
-- ==== Proof.LayerValue1.lean ====
/- Region 1 of the kernel's program: what its output array holds after the region, as one function of the arrays it read. -/
import proofs.«427853_j39633958208177_1_alg».proof.Proof.Gen.KernelIdeal.Frame
import proofs.«427853_j39633958208177_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen Cert.GraphSpec

namespace Cert.KernelIdeal.LayerValue1

variable (V : (c : Dev nD) → (b : Ref sig .tc) → Buf (Elt Ideal) ((c : Thread nD τ).loc b))

/-! ## The block product at an index -/

/-- The left operand of the block product is read at the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand of the block product is read at the contraction index's column. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand of the block product is read at the contraction index's row. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand of the block product is read at the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a 128 × 128 matrix, accumulated into zero, at row `p` and column `q`:
    the sum over `k` of `a[p,k] · w[k,q]`. -/
theorem blockProduct_apply (a : FVec Ideal S2000x128 .f32) (w : FVec Ideal S128x128 .f32) (p : Fin 2000) (q : Fin 128) :
    matmul dot_S2000x128_S128x128_S2000x128_1_0_0_1_n_n none a w (constant S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun ax => Fin.ext (by
    match ax with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-! ## The bias row under every row of the block -/

/-- The bias vector, laid out as one row and repeated down the block's 2000 rows, holds `b[q]` at column `q` of every row. -/
theorem biasRows_apply (b : FVec Ideal S128 .f32) (h : S128.ShapeCasts S1x128) (h' : S1x128.Broadcasts S2000x128)
    (p : Fin 2000) (q : Fin 128) :
    broadcastTo S2000x128 (shapeCast S1x128 b h) h' (ix2 p q) = b (ix1 q) :=
  (broadcastTo_1b_ab_apply (shapeCast S1x128 b h) h' p q).trans (shapeCast_a_1a_apply b h (0 : Fin 1) q)

/-! ## The body's arithmetic at an index -/

/-- What the body stores at row `p`, column `q` of its block: the two block products added, the bias added, and the
    maximum with zero taken. -/
theorem payload_apply (x0 x1 : Vec Ideal S2000x128 .f32) (x2 x3 : Vec Ideal S128x128 .f32) (x4 : Vec Ideal S128 .f32)
    (p : Fin 2000) (q : Fin 128) :
    k1_pay1 x0 x1 x2 x3 x4 (ix2 p q)
      = max ((∑ k : Fin 128, x0 (ix2 p k) * x2 (ix2 k q) + ∑ k : Fin 128, x1 (ix2 p k) * x3 (ix2 k q)) + x4 (ix1 q)) 0 := by
  unfold k1_pay1
  simp only [shapeCast_self]
  refine (maximumf_apply _ _ _).trans ?_
  refine congrArg₂ max ?_ ?_
  · refine (addf_apply _ _ _).trans ?_
    refine congrArg₂ (· + ·) ?_ (biasRows_apply x4 _ _ p q)
    refine (addf_apply _ _ _).trans ?_
    exact congrArg₂ (· + ·) (blockProduct_apply x0 x2 p q) (blockProduct_apply x1 x3 p q)
  · exact (broadcast_apply _ _).trans Ideal.ofBits_zero_f32

/-! ## The blocks the region reads, as rows of the arrays -/

theorem zeroOffsets2 : (![0, 0] : Fin 2 → Nat) = fun _ => 0 := funext fun a => by fin_cases a <;> rfl

theorem zeroOffsets1 : (![0] : Fin 1 → Nat) = fun _ => 0 := funext fun a => by fin_cases a; rfl

/-- Where each window's block sits at grid point `t`: the two row-blocked inputs and the output at row block `t`,
    column block 0; the two weight matrices and the bias whole, at block 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the block of grid point `t` is row `2000 · t + p` of a 20000-row array. -/
def rowOf (t : Fin cfg1.N) (p : Fin 2000) : Fin 20000 :=
  ⟨2000 * t.val + p.val, by have ht : t.val < 10 := lt_of_lt_of_eq t.isLt N_1; have hp := p.isLt; omega⟩

/-- The neighbourhood sums' block at point `t` holds rows `2000 · t …` of their array. -/
theorem aggBlock_apply (c : Dev nD) (t : Fin cfg1.N) (p : Fin 2000) (k : Fin 128) :
    (iblk1 V c 0 t : Vec Ideal S2000x128 .f32) (ix2 p k) = (V c main_v24 : FVec Ideal S20000x128 .f32) (ix2 (rowOf t p) k) := by
  obtain ⟨e0, e1, -⟩ := block_indices t
  unfold iblk1
  rw [View.read_apply]
  show V c main_v24 _ = V c main_v24 _
  congr 1
  funext a
  apply Fin.ext
  match a with
  | ⟨0, _⟩ => show win1_0.index t 0 * 2000 + 1 * p.val = 2000 * t.val + p.val; rw [e0]; omega
  | ⟨1, _⟩ => show win1_0.index t 1 * 128 + 1 * k.val = k.val; rw [e1]; omega

/-- The node features' block at point `t` holds rows `2000 · t …` of their array. -/
theorem featBlock_apply (c : Dev nD) (t : Fin cfg1.N) (p : Fin 2000) (k : Fin 128) :
    (iblk1 V c 1 t : Vec Ideal S2000x128 .f32) (ix2 p k) = (V c main_v14 : FVec Ideal S20000x128 .f32) (ix2 (rowOf t p) k) := by
  obtain ⟨-, -, e0, e1, -⟩ := block_indices t
  unfold iblk1
  rw [View.read_apply]
  show V c main_v14 _ = V c main_v14 _
  congr 1
  funext a
  apply Fin.ext
  match a with
  | ⟨0, _⟩ => show win1_1.index t 0 * 2000 + 1 * p.val = 2000 * t.val + p.val; rw [e0]; omega
  | ⟨1, _⟩ => show win1_1.index t 1 * 128 + 1 * k.val = k.val; rw [e1]; omega

/-- The neighbour weights' block is the whole matrix at every point. -/
theorem wrelBlock_apply (c : Dev nD) (t : Fin cfg1.N) (k q : Fin 128) :
    (iblk1 V c 2 t : Vec Ideal S128x128 .f32) (ix2 k q) = (V c main_arg6 : FVec Ideal S128x128 .f32) (ix2 k q) := by
  obtain ⟨-, -, -, -, e0, e1, -⟩ := block_indices t
  unfold iblk1
  rw [View.read_apply]
  show V c main_arg6 _ = V c main_arg6 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

/-- The root weights' block is the whole matrix at every point. -/
theorem wrootBlock_apply (c : Dev nD) (t : Fin cfg1.N) (k q : Fin 128) :
    (iblk1 V c 3 t : Vec Ideal S128x128 .f32) (ix2 k q) = (V c main_arg8 : FVec Ideal S128x128 .f32) (ix2 k q) := by
  obtain ⟨-, -, -, -, -, -, e0, e1, -⟩ := block_indices t
  unfold iblk1
  rw [View.read_apply]
  show V c main_arg8 _ = V c main_arg8 _
  congr 1
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

/-- The bias's block is the whole vector at every point. -/
theorem biasBlock_apply (c : Dev nD) (t : Fin cfg1.N) (q : Fin 128) :
    (iblk1 V c 4 t : Vec Ideal S128 .f32) (ix1 q) = (V c main_arg7 : FVec Ideal S128 .f32) (ix1 q) := by
  obtain ⟨-, -, -, -, -, -, -, -, e0, -⟩ := block_indices t
  unfold iblk1
  rw [View.read_apply]
  show V c main_arg7 _ = V c main_arg7 _
  congr 1
  funext a
  apply Fin.ext
  match a with
  | ⟨0, _⟩ => show win1_4.index t 0 * 128 + 1 * q.val = q.val; rw [e0]; omega

/-! ## What one grid point writes -/

/-- At row `p`, column `q` of point `t`'s block the body stores the layer's activation of node `2000 · t + p`, feature `q`. -/
theorem block_value (c : Dev nD) (t : Fin cfg1.N) (p : Fin 2000) (q : Fin 128) :
    k1_pay1 (iblk1 V c 0 t) (iblk1 V c 1 t) (iblk1 V c 2 t) (iblk1 V c 3 t) (iblk1 V c 4 t) (ix2 p q)
      = denseAt128 (V c main_v24) (V c main_v14) (V c main_arg6) (V c main_arg8) (V c main_arg7) (rowOf t p) q := by
  refine (payload_apply (iblk1 V c 0 t) (iblk1 V c 1 t) (iblk1 V c 2 t) (iblk1 V c 3 t) (iblk1 V c 4 t) p q).trans ?_
  unfold denseAt128
  refine congrArg₂ max (congrArg₂ (· + ·) (congrArg₂ (· + ·) (Finset.sum_congr rfl fun k _ => ?_) (Finset.sum_congr rfl fun k _ => ?_)) ?_) rfl
  · exact congrArg₂ (· * ·) (aggBlock_apply V c t p k) (wrelBlock_apply V c t k q)
  · exact congrArg₂ (· * ·) (featBlock_apply V c t p k) (wrootBlock_apply V c t k q)
  · exact biasBlock_apply V c t q

/-- What point `t` writes back is block `t` of the layer's activations. -/
theorem flushed_eq (c : Dev nD) (t : Fin cfg1.N) :
    (dat1 (F := Ideal) V c).flushed 5 t = ((cfg1.win 5).blk t).view.read (Elt Ideal)
      (dense128 (V c main_v24) (V c main_v14) (V c main_arg6) (V c main_arg8) (V c main_arg7) : FVec Ideal S20000x128 .f32) := by
  show (cfg1.win 5).cut (grid1.coords t) ((dat1 V c).after 5 t) = _
  rw [after1_5]
  unfold out1_5
  rw [View.canon_unit_zero zeroOffsets2]
  simp only [View.ld_unit_zero (S := S2000x128) zeroOffsets2, View.ld_unit_zero (S := S128x128) zeroOffsets2, View.ld_unit_zero (S := S128) zeroOffsets1]
  obtain ⟨-, -, -, -, -, -, -, -, -, e0, e1⟩ := block_indices t
  funext j
  obtain ⟨p, q, rfl⟩ : ∃ (p : Fin 2000) (q : Fin 128), j = ix2 p q := ⟨j 0, j 1, eq_ix2 j⟩
  refine (block_value V c t p q).trans ?_
  have he : ((cfg1.win 5).blk t).view.emb (ix2 p q) = ix2 (rowOf t p) q := by
    funext a
    apply Fin.ext
    match a with
    | ⟨0, _⟩ => show win1_5.index t 0 * 2000 + 1 * p.val = 2000 * t.val + p.val; rw [e0]; omega
    | ⟨1, _⟩ => show win1_5.index t 1 * 128 + 1 * q.val = q.val; rw [e1]; omega
  rw [View.read_apply]
  show _ = dense128 _ _ _ _ _ (((cfg1.win 5).blk t).view.emb (ix2 p q))
  rw [he]
  rfl

/-! ## From blocks to the array -/

/-- An index of the output array is in point `t`'s block iff each coordinate is in the block's range on its axis. -/
theorem mem_block (t : Fin cfg1.N) (i : S20000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v25).slice (win1_5.rect t)).set ↔ _
  rw [View.set_slice_whole, Rect.mem_set_unit]
  exact Iff.rfl

/-- Every row `r` of the output array is in the block of point `r / 2000`, which writes back. -/
theorem covered (i : S20000x128.Idx) :
    ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 10) N_1.symm⟩, rfl⟩
  obtain ⟨-, -, -, -, -, -, -, -, -, e0, e1⟩ := block_indices t
  refine ⟨t, flush1_5 t, ?_⟩
  rw [mem_block]
  intro a
  match a with
  | ⟨0, _⟩ => show win1_5.index t 0 * 2000 ≤ (i 0).val ∧ (i 0).val < win1_5.index t 0 * 2000 + 2000; rw [e0, ht]; omega
  | ⟨1, _⟩ => show win1_5.index t 1 * 128 ≤ (i 1).val ∧ (i 1).val < win1_5.index t 1 * 128 + 128; rw [e1]; omega

/-- After region 1 its output array is the layer's activations of the arrays the region found: the neighbourhood sums
    `main_v24`, the node features `main_v14`, the two weight matrices and the bias. -/
theorem final (c : Dev nD) :
    (dat1 (F := Ideal) V c).arrAt 5 cfg1.N
      = (dense128 (V c main_v24) (V c main_v14) (V c main_arg6) (V c main_arg8) (V c main_arg7) : FVec Ideal S20000x128 .f32) := by
  exact (dat1 (F := Ideal) V c).arrAt_eq_of_cover 5 _ (fun t _ => flushed_eq V c t) covered

end Cert.KernelIdeal.LayerValue1

end
-- ==== Proof.LayerValue2.lean ====
/- Region 2 of the kernel's program: what its output array holds after the region, as one function of the arrays it read. -/
import proofs.«427853_j39633958208177_1_alg».proof.Proof.Gen.KernelIdeal.Frame
import proofs.«427853_j39633958208177_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen Cert.GraphSpec

namespace Cert.KernelIdeal.LayerValue2

variable (V : (c : Dev nD) → (b : Ref sig .tc) → Buf (Elt Ideal) ((c : Thread nD τ).loc b))

/-! ## The block product at an index -/

/-- The left operand of the block product is read at the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand of the block product is read at the contraction index's column. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand of the block product is read at the contraction index's row. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand of the block product is read at the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a 128 × 128 matrix, accumulated into zero, at row `p` and column `q`:
    the sum over `k` of `a[p,k] · w[k,q]`. -/
theorem blockProduct_apply (a : FVec Ideal S2000x128 .f32) (w : FVec Ideal S128x128 .f32) (p : Fin 2000) (q : Fin 128) :
    matmul dot_S2000x128_S128x128_S2000x128_1_0_0_1_n_n none a w (constant S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun ax => Fin.ext (by
    match ax with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-! ## The bias row under every row of the block -/

/-- The bias vector, laid out as one row and repeated down the block's 2000 rows, holds `b[q]` at column `q` of every row. -/
theorem biasRows_apply (b : FVec Ideal S128 .f32) (h : S128.ShapeCasts S1x128) (h' : S1x128.Broadcasts S2000x128)
    (p : Fin 2000) (q : Fin 128) :
    broadcastTo S2000x128 (shapeCast S1x128 b h) h' (ix2 p q) = b (ix1 q) :=
  (broadcastTo_1b_ab_apply (shapeCast S1x128 b h) h' p q).trans (shapeCast_a_1a_apply b h (0 : Fin 1) q)

/-! ## The body's arithmetic at an index -/

/-- What the body stores at row `p`, column `q` of its block: the two block products added, the bias added, and the
    maximum with zero taken. -/
theorem payload_apply (x0 x1 : Vec Ideal S2000x128 .f32) (x2 x3 : Vec Ideal S128x128 .f32) (x4 : Vec Ideal S128 .f32)
    (p : Fin 2000) (q : Fin 128) :
    k2_pay1 x0 x1 x2 x3 x4 (ix2 p q)
      = max ((∑ k : Fin 128, x0 (ix2 p k) * x2 (ix2 k q) + ∑ k : Fin 128, x1 (ix2 p k) * x3 (ix2 k q)) + x4 (ix1 q)) 0 := by
  unfold k2_pay1
  simp only [shapeCast_self]
  refine (maximumf_apply _ _ _).trans ?_
  refine congrArg₂ max ?_ ?_
  · refine (addf_apply _ _ _).trans ?_
    refine congrArg₂ (· + ·) ?_ (biasRows_apply x4 _ _ p q)
    refine (addf_apply _ _ _).trans ?_
    exact congrArg₂ (· + ·) (blockProduct_apply x0 x2 p q) (blockProduct_apply x1 x3 p q)
  · exact (broadcast_apply _ _).trans Ideal.ofBits_zero_f32

/-! ## The blocks the region reads, as rows of the arrays -/

theorem zeroOffsets2 : (![0, 0] : Fin 2 → Nat) = fun _ => 0 := funext fun a => by fin_cases a <;> rfl

theorem zeroOffsets1 : (![0] : Fin 1 → Nat) = fun _ => 0 := funext fun a => by fin_cases a; rfl

/-- Where each window's block sits at grid point `t`: the two row-blocked inputs and the output at row block `t`,
    column block 0; the two weight matrices and the bias whole, at block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row `p` of the block of grid point `t` is row `2000 · t + p` of a 20000-row array. -/
def rowOf (t : Fin cfg2.N) (p : Fin 2000) : Fin 20000 :=
  ⟨2000 * t.val + p.val, by have ht : t.val < 10 := lt_of_lt_of_eq t.isLt N_2; have hp := p.isLt; omega⟩

/-- The neighbourhood sums' block at point `t` holds rows `2000 · t …` of their array. -/
theorem aggBlock_apply (c : Dev nD) (t : Fin cfg2.N) (p : Fin 2000) (k : Fin 128) :
    (iblk2 V c 0 t : Vec Ideal S2000x128 .f32) (ix2 p k) = (V c main_v35 : FVec Ideal S20000x128 .f32) (ix2 (rowOf t p) k) := by
  obtain ⟨e0, e1, -⟩ := block_indices t
  unfold iblk2
  rw [View.read_apply]
  show V c main_v35 _ = V c main_v35 _
  congr 1
  funext a
  apply Fin.ext
  match a with
  | ⟨0, _⟩ => show win2_0.index t 0 * 2000 + 1 * p.val = 2000 * t.val + p.val; rw [e0]; omega
  | ⟨1, _⟩ => show win2_0.index t 1 * 128 + 1 * k.val = k.val; rw [e1]; omega

/-- The node features' block at point `t` holds rows `2000 · t …` of their array. -/
theorem featBlock_apply (c : Dev nD) (t : Fin cfg2.N) (p : Fin 2000) (k : Fin 128) :
    (iblk2 V c 1 t : Vec Ideal S2000x128 .f32) (ix2 p k) = (V c main_v25 : FVec Ideal S20000x128 .f32) (ix2 (rowOf t p) k) := by
  obtain ⟨-, -, e0, e1, -⟩ := block_indices t
  unfold iblk2
  rw [View.read_apply]
  show V c main_v25 _ = V c main_v25 _
  congr 1
  funext a
  apply Fin.ext
  match a with
  | ⟨0, _⟩ => show win2_1.index t 0 * 2000 + 1 * p.val = 2000 * t.val + p.val; rw [e0]; omega
  | ⟨1, _⟩ => show win2_1.index t 1 * 128 + 1 * k.val = k.val; rw [e1]; omega

/-- The neighbour weights' block is the whole matrix at every point. -/
theorem wrelBlock_apply (c : Dev nD) (t : Fin cfg2.N) (k q : Fin 128) :
    (iblk2 V c 2 t : Vec Ideal S128x128 .f32) (ix2 k q) = (V c main_arg9 : FVec Ideal S128x128 .f32) (ix2 k q) := by
  obtain ⟨-, -, -, -, e0, e1, -⟩ := block_indices t
  unfold iblk2
  rw [View.read_apply]
  show V c main_arg9 _ = V c main_arg9 _
  congr 1
  funext a
  apply Fin.ext
  match a with
  | ⟨0, _⟩ => show win2_2.index t 0 * 128 + 1 * k.val = k.val; rw [e0]; omega
  | ⟨1, _⟩ => show win2_2.index t 1 * 128 + 1 * q.val = q.val; rw [e1]; omega

/-- The root weights' block is the whole matrix at every point. -/
theorem wrootBlock_apply (c : Dev nD) (t : Fin cfg2.N) (k q : Fin 128) :
    (iblk2 V c 3 t : Vec Ideal S128x128 .f32) (ix2 k q) = (V c main_arg11 : FVec Ideal S128x128 .f32) (ix2 k q) := by
  obtain ⟨-, -, -, -, -, -, e0, e1, -⟩ := block_indices t
  unfold iblk2
  rw [View.read_apply]
  show V c main_arg11 _ = V c main_arg11 _
  congr 1
  funext a
  apply Fin.ext
  match a with
  | ⟨0, _⟩ => show win2_3.index t 0 * 128 + 1 * k.val = k.val; rw [e0]; omega
  | ⟨1, _⟩ => show win2_3.index t 1 * 128 + 1 * q.val = q.val; rw [e1]; omega

/-- The bias's block is the whole vector at every point. -/
theorem biasBlock_apply (c : Dev nD) (t : Fin cfg2.N) (q : Fin 128) :
    (iblk2 V c 4 t : Vec Ideal S128 .f32) (ix1 q) = (V c main_arg10 : FVec Ideal S128 .f32) (ix1 q) := by
  obtain ⟨-, -, -, -, -, -, -, -, e0, -⟩ := block_indices t
  unfold iblk2
  rw [View.read_apply]
  show V c main_arg10 _ = V c main_arg10 _
  congr 1
  funext a
  apply Fin.ext
  match a with
  | ⟨0, _⟩ => show win2_4.index t 0 * 128 + 1 * q.val = q.val; rw [e0]; omega

/-! ## What one grid point writes -/

/-- At row `p`, column `q` of point `t`'s block the body stores the layer's activation of node `2000 · t + p`, feature `q`. -/
theorem block_value (c : Dev nD) (t : Fin cfg2.N) (p : Fin 2000) (q : Fin 128) :
    k2_pay1 (iblk2 V c 0 t) (iblk2 V c 1 t) (iblk2 V c 2 t) (iblk2 V c 3 t) (iblk2 V c 4 t) (ix2 p q)
      = denseAt128 (V c main_v35) (V c main_v25) (V c main_arg9) (V c main_arg11) (V c main_arg10) (rowOf t p) q := by
  refine (payload_apply (iblk2 V c 0 t) (iblk2 V c 1 t) (iblk2 V c 2 t) (iblk2 V c 3 t) (iblk2 V c 4 t) p q).trans ?_
  unfold denseAt128
  refine congrArg₂ max (congrArg₂ (· + ·) (congrArg₂ (· + ·) (Finset.sum_congr rfl fun k _ => ?_) (Finset.sum_congr rfl fun k _ => ?_)) ?_) rfl
  · exact congrArg₂ (· * ·) (aggBlock_apply V c t p k) (wrelBlock_apply V c t k q)
  · exact congrArg₂ (· * ·) (featBlock_apply V c t p k) (wrootBlock_apply V c t k q)
  · exact biasBlock_apply V c t q

/-- What point `t` writes back is block `t` of the layer's activations. -/
theorem flushed_eq (c : Dev nD) (t : Fin cfg2.N) :
    (dat2 (F := Ideal) V c).flushed 5 t = ((cfg2.win 5).blk t).view.read (Elt Ideal)
      (dense128 (V c main_v35) (V c main_v25) (V c main_arg9) (V c main_arg11) (V c main_arg10) : FVec Ideal S20000x128 .f32) := by
  show (cfg2.win 5).cut (grid2.coords t) ((dat2 V c).after 5 t) = _
  rw [after2_5]
  unfold out2_5
  rw [View.canon_unit_zero zeroOffsets2]
  simp only [View.ld_unit_zero (S := S2000x128) zeroOffsets2, View.ld_unit_zero (S := S128x128) zeroOffsets2, View.ld_unit_zero (S := S128) zeroOffsets1]
  obtain ⟨-, -, -, -, -, -, -, -, -, e0, e1⟩ := block_indices t
  funext j
  obtain ⟨p, q, rfl⟩ : ∃ (p : Fin 2000) (q : Fin 128), j = ix2 p q := ⟨j 0, j 1, eq_ix2 j⟩
  refine (block_value V c t p q).trans ?_
  have he : ((cfg2.win 5).blk t).view.emb (ix2 p q) = ix2 (rowOf t p) q := by
    funext a
    apply Fin.ext
    match a with
    | ⟨0, _⟩ => show win2_5.index t 0 * 2000 + 1 * p.val = 2000 * t.val + p.val; rw [e0]; omega
    | ⟨1, _⟩ => show win2_5.index t 1 * 128 + 1 * q.val = q.val; rw [e1]; omega
  rw [View.read_apply]
  show _ = dense128 _ _ _ _ _ (((cfg2.win 5).blk t).view.emb (ix2 p q))
  rw [he]
  rfl

/-! ## From blocks to the array -/

/-- An index of the output array is in point `t`'s block iff each coordinate is in the block's range on its axis. -/
theorem mem_block (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v36).slice (win2_5.rect t)).set ↔ _
  rw [View.set_slice_whole, Rect.mem_set_unit]
  exact Iff.rfl

/-- Every row `r` of the output array is in the block of point `r / 2000`, which writes back. -/
theorem covered (i : S20000x128.Idx) :
    ∃ t : Fin cfg2.N, (cfg2.win 5).flush t = true ∧ i ∈ ((cfg2.win 5).blk t).view.set := by
  have hi0 : (i 0).val < 20000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 10) N_2.symm⟩, rfl⟩
  obtain ⟨-, -, -, -, -, -, -, -, -, e0, e1⟩ := block_indices t
  refine ⟨t, flush2_5 t, ?_⟩
  rw [mem_block]
  intro a
  match a with
  | ⟨0, _⟩ => show win2_5.index t 0 * 2000 ≤ (i 0).val ∧ (i 0).val < win2_5.index t 0 * 2000 + 2000; rw [e0, ht]; omega
  | ⟨1, _⟩ => show win2_5.index t 1 * 128 ≤ (i 1).val ∧ (i 1).val < win2_5.index t 1 * 128 + 128; rw [e1]; omega

/-- After region 2 its output array is the layer's activations of the arrays the region found: the neighbourhood sums
    `main_v35`, the node features `main_v25`, the two weight matrices and the bias. -/
theorem final (c : Dev nD) :
    (dat2 (F := Ideal) V c).arrAt 5 cfg2.N
      = (dense128 (V c main_v35) (V c main_v25) (V c main_arg9) (V c main_arg11) (V c main_arg10) : FVec Ideal S20000x128 .f32) := by
  exact (dat2 (F := Ideal) V c).arrAt_eq_of_cover 5 _ (fun t _ => flushed_eq V c t) covered

end Cert.KernelIdeal.LayerValue2

end
-- ==== Proof.PoolValue.lean ====
/-
  Region 3 of the kernel's program, the global add-pool: what its output array holds after the last grid point.

  The grid has ten points; point `t` reads row block `t` (2000 nodes) of the graph-id column and of the last layer's
  activations, and the one [128,128] output block stays in place from point to point. The first point stores the zero
  block; every point then replaces the block's contents `acc` by
      acc (g, j) + ∑ᵣ oh (r, g) · h (r, j),        oh (r, g) = 1 if row r's graph id is g, else 0,
  the one-hot matrix product contracted over the block's 2000 rows. One times a value is the value and zero times a
  value is zero for every extended real, so the sum is the sum of the contributions `poolTerm` of the block's nodes
  `2000 t + r`. By induction on the point the block holds after point `n` the left-nested running total, from zero,
  of the block sums `0 … n`; a running total is the sum of its terms, and ten runs of 2000 consecutive nodes laid end to
  end are the sum over all 20000 nodes: the pooled feature. The block is written back once, after the last point, and
  it is the whole output array.
-/
import proofs.«427853_j39633958208177_1_alg».proof.Proof.Gen.KernelIdeal.Frame
import proofs.«427853_j39633958208177_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen Cert.GraphSpec

namespace Cert.KernelIdeal.PoolValue

variable (V : (c : Dev nD) → (b : Ref sig .tc) → Buf (Elt Ideal) ((c : Thread nD τ).loc b))

/-! ## What each of the two control cases leaves in the output block -/

section Pieces
variable {F : FTy → Type} [FloatOps F]

/-- The zero offsets of a whole-block access, as the constant function. -/
theorem offsets_zero : (![0, 0] : Fin 2 → Nat) = fun _ => 0 := funext fun a => by fin_cases a <;> rfl

/-- At a point after the first the body leaves in the output block, which held `xo`, the accumulation step of `xo`:
    its one store covers the block, and its loads read the three whole buffers. -/
theorem out_B (c : Dev nD) (i : grid3.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (hc : ¬cond3_0 i) (x0 : Vec F S2000x1 .i32) (x1 : Vec F S2000x128 .f32) (xo : Vec F S128x128 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero offsets_zero]
  simp only [View.readAt_eq_ld, h1.read_unread, h2.read_unread, h3.read_unread,
    View.ld_unit_zero (S := S2000x1) offsets_zero, View.ld_unit_zero (S := S2000x128) offsets_zero,
    View.ld_unit_zero (S := S128x128) offsets_zero]

/-- At the first point the body first stores the zero block, then reads it back as the accumulator: it leaves the
    accumulation step of the zero block. -/
theorem out_A (c : Dev nD) (i : grid3.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (hc : cond3_0 i) (x0 : Vec F S2000x1 .i32) (x1 : Vec F S2000x128 .f32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S128x128) offsets_zero, View.readCov_unit_zero (S := S128x128) _ offsets_zero]
  simp only [View.readAt_eq_ld, h1.read_unread, h2.read_unread,
    View.ld_unit_zero (S := S2000x1) offsets_zero, View.ld_unit_zero (S := S2000x128) offsets_zero]

end Pieces

/-! ## The accumulation step at an index -/

/-- The contraction of the step's matrix product: over axis 0 of the left factor, a single contraction axis, so its
    coordinate on that axis is the contraction position. -/
theorem lhs_axis0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q

/-- The left factor's free axis 1 is the output's axis 0. -/
theorem lhs_axis1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl

/-- The right factor is contracted over its axis 0 as well. -/
theorem rhs_axis0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q

/-- The right factor's free axis 1 is the output's axis 1. -/
theorem rhs_axis1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

/-- The product of two [2000,128] blocks contracted over their rows, into the zero block: at `(g, j)` the sum over
    the rows `r` of `L (r, g) · R (r, j)`. -/
theorem rowContraction_apply (L R : FVec Ideal S2000x128 .f32) (g j : Fin 128) :
    matmul dot_S2000x128_S2000x128_S128x128_0_0_1_1_n_n none L R (constant (F := Ideal) S128x128 .f32 0x00000000#32) (ix2 g j)
      = ∑ r : Fin 2000, L (ix2 r g) * R (ix2 r j) := by
  simp only [matmul]
  rw [Ideal.matmul_constant_zero_apply, ← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  have el : dot_S2000x128_S2000x128_S128x128_0_0_1_1_n_n.lhsIdx (ix2 g j) ((contrEquiv1 dot_S2000x128_S2000x128_S128x128_0_0_1_1_n_n 2000 rfl rfl).symm k) = ix2 k g := funext fun a => Fin.ext (by
    match a with
    | ⟨0, _⟩ => exact (lhs_axis0 _ _).trans hk
    | ⟨1, _⟩ => exact lhs_axis1 _ _)
  have er : dot_S2000x128_S2000x128_S128x128_0_0_1_1_n_n.rhsIdx (ix2 g j) ((contrEquiv1 dot_S2000x128_S2000x128_S128x128_0_0_1_1_n_n 2000 rfl rfl).symm k) = ix2 k j := funext fun a => Fin.ext (by
    match a with
    | ⟨0, _⟩ => exact (rhs_axis0 _ _).trans hk
    | ⟨1, _⟩ => exact rhs_axis1 _ _)
  rw [el, er]

/-- The comparison word of two 32-bit words, widened and read as a signed integer, is the indicator of their equality. -/
theorem indicator_word (x y : BitVec 32) :
    ((((IntOp.cmpi .eq x y).setWidth 32).toInt : ℝ) : EReal) = if x = y then 1 else 0 := by
  by_cases h : x = y
  · subst h
    rw [if_pos rfl]
    have e : (IntOp.cmpi .eq x x).setWidth 32 = 1#32 := by simp [IntOp.cmpi]
    rw [e]; simp
  · rw [if_neg h]
    have hb : (x == y) = false := beq_eq_false_iff_ne.mpr h
    have e : (IntOp.cmpi .eq x y).setWidth 32 = 0#32 := by simp [IntOp.cmpi, hb]
    rw [e]; simp

/-- The one-hot matrix of a block of graph ids: at row `r`, column `g` it is 1 when row `r`'s id is the word of `g`
    (the column number the iota along axis 1 holds), else 0. -/
theorem oneHot_apply (ids : IVec S2000x1 32) (r : Fin 2000) (g : Fin 128) :
    (sitofp .f32 (extui 32 (cmpi .eq (broadcastTo S2000x128 (shapeCast S2000x1 ids shapeCasts_S2000x1_S2000x1) broadcasts_S2000x1_S2000x128)
        (iota .tc S2000x128 32 [1] iota_S2000x128_d1_w32)) natLt_1_32) : FVec Ideal S2000x128 .f32) (ix2 r g)
      = if ids (ix2 r 0) = BitVec.ofNat 32 g.val then 1 else 0 := by
  rw [shapeCast_self]
  show ((((IntOp.cmpi .eq (broadcastTo S2000x128 ids broadcasts_S2000x1_S2000x128 (ix2 r g))
      (iota .tc S2000x128 32 [1] iota_S2000x128_d1_w32 (ix2 r g))).setWidth 32).toInt : ℝ) : EReal) = _
  rw [broadcastTo_apply ids broadcasts_S2000x1_S2000x128 (ix2 r g) (ix2 r 0) (fun a => by
      match a with
      | ⟨0, _⟩ => exact (if_neg (show ¬((2000 : ℕ) = 1) by decide)).symm
      | ⟨1, _⟩ => exact (if_pos (rfl : (1 : ℕ) = 1)).symm),
    iota_single_apply]
  exact indicator_word _ _

/-- THE STEP AT AN INDEX: the accumulator at `(g, j)` plus, over the block's 2000 rows, the row's feature `j` when the
    row's graph id is `g` and zero otherwise (one times a value is the value, zero times a value is zero, for every
    extended real). -/
theorem step_apply (ids : Vec Ideal S2000x1 .i32) (hb : Vec Ideal S2000x128 .f32) (acc : Vec Ideal S128x128 .f32) (g j : Fin 128) :
    k3_pay2 (F := Ideal) ids hb acc (ix2 g j)
      = acc (ix2 g j) + ∑ r : Fin 2000, (if ids (ix2 r 0) = BitVec.ofNat 32 g.val then hb (ix2 r j) else 0) := by
  unfold k3_pay2
  refine (addf_apply _ _ _).trans ?_
  refine congrArg₂ (· + ·) (congrFun (shapeCast_self acc _) _) ?_
  refine (rowContraction_apply _ _ g j).trans ?_
  refine Finset.sum_congr rfl fun r _ => ?_
  refine (congrArg₂ (· * ·) (oneHot_apply ids r g) (congrFun (shapeCast_self hb _) _)).trans ?_
  by_cases h : ids (ix2 r 0) = BitVec.ofNat 32 g.val
  · rw [if_pos h, if_pos h, one_mul]
  · rw [if_neg h, if_neg h, zero_mul]

/-! ## The blocks and the arrays, by their literal types -/

/-- The graph-id column as the region finds it. -/
abbrev batArr (c : Dev nD) : IVec S20000x1 32 := V c main_v37
/-- The last layer's activations as the region finds them. -/
abbrev hArr (c : Dev nD) : FVec Ideal S20000x128 .f32 := V c main_v36
/-- The block of 2000 graph ids the body reads at point `t`. -/
abbrev idsBlk (c : Dev nD) (t : Fin cfg3.N) : Vec Ideal S2000x1 .i32 := iblk3 V c 0 t
/-- The block of 2000 activation rows the body reads at point `t`. -/
abbrev hBlk (c : Dev nD) (t : Fin cfg3.N) : Vec Ideal S2000x128 .f32 := iblk3 V c 1 t

/-- Row `r` of the block at point `t` is node `2000 t + r`. -/
def node (t : Fin cfg3.N) (r : Fin 2000) : Fin 20000 :=
  ⟨2000 * t.val + r.val, by have := t.isLt; have : cfg3.N = 10 := N_3; have := r.isLt; omega⟩

/-- Both input windows step through the row blocks in order and stay at column block 0. -/
theorem ids_index : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem h_index : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)

/-- The id block at point `t`, row `r`: the column's entry of node `2000 t + r`. -/
theorem idsBlk_apply (c : Dev nD) (t : Fin cfg3.N) (r : Fin 2000) :
    idsBlk V c t (ix2 r 0) = batArr V c (ix2 (node t r) 0) := by
  show iblk3 V c 0 t (ix2 r 0) = V c main_v37 (ix2 (node t r) 0)
  unfold iblk3
  rw [View.read_apply]
  show V c main_v37 _ = V c main_v37 _
  congr 1
  funext a
  apply Fin.ext
  match a with
  | ⟨0, _⟩ => show win3_0.index t 0 * 2000 + 1 * r.val = 2000 * t.val + r.val; rw [(ids_index t).1]; omega
  | ⟨1, _⟩ => show win3_0.index t 1 * 1 + 1 * 0 = 0; rw [(ids_index t).2]

/-- The activation block at point `t`, row `r`, feature `j`: the array's entry of node `2000 t + r`. -/
theorem hBlk_apply (c : Dev nD) (t : Fin cfg3.N) (r : Fin 2000) (j : Fin 128) :
    hBlk V c t (ix2 r j) = hArr V c (ix2 (node t r) j) := by
  show iblk3 V c 1 t (ix2 r j) = V c main_v36 (ix2 (node t r) j)
  unfold iblk3
  rw [View.read_apply]
  show V c main_v36 _ = V c main_v36 _
  congr 1
  funext a
  apply Fin.ext
  match a with
  | ⟨0, _⟩ => show win3_1.index t 0 * 2000 + 1 * r.val = 2000 * t.val + r.val; rw [(h_index t).1]; omega
  | ⟨1, _⟩ => show win3_1.index t 1 * 128 + 1 * j.val = j.val; rw [(h_index t).2]; omega

/-! ## The accumulation over the ten points -/

/-- Node number `q`'s contribution to graph `g`'s pooled feature `j`, carried over the naturals: zero past the last node. -/
def termAt (c : Dev nD) (g j : Fin 128) (q : ℕ) : EReal :=
  if hq : q < 20000 then poolTerm (fun n => batArr V c (ix2 n 0)) (hArr V c) g j ⟨q, hq⟩ else 0

/-- The contributions of block `s`'s 2000 nodes. -/
def blockSum (c : Dev nD) (g j : Fin 128) (s : ℕ) : EReal :=
  ∑ r ∈ Finset.range 2000, termAt V c g j (2000 * s + r)

/-- What the step adds at point `t` is the sum of the contributions of block `t`'s nodes. -/
theorem step_sum (c : Dev nD) (t : Fin cfg3.N) (g j : Fin 128) :
    ∑ r : Fin 2000, (if idsBlk V c t (ix2 r 0) = BitVec.ofNat 32 g.val then hBlk V c t (ix2 r j) else 0)
      = blockSum V c g j t.val := by
  unfold blockSum
  rw [Finset.sum_range]
  refine Finset.sum_congr rfl fun r _ => ?_
  rw [idsBlk_apply V c t r, hBlk_apply V c t r j]
  unfold termAt
  rw [dif_pos (show 2000 * t.val + r.val < 20000 from (node t r).isLt)]
  rfl

/-- The zero block the first point stores holds the extended real zero. -/
theorem zeroBlock_apply (i : S128x128.Idx) : (k3_pay1 (F := Ideal)) i = 0 := by
  unfold k3_pay1
  exact Ideal.ofBits_zero_f32

/-- THE INVARIANT: after point `n` the output block holds at `(g, j)` the running total, started from zero, of the
    block sums `0 … n` — by induction on the point. -/
theorem outsAt_apply (c : Dev nD) (g j : Fin 128) : ∀ (n : ℕ) (h : n < cfg3.N),
    outsAt3 V c n h (ix2 g j) = accUpTo (blockSum V c g j) n
  | 0, h => by
    refine (congrFun (outsAt3_A V c ⟨0, h⟩ rfl) (ix2 g j)).trans ?_
    refine (congrFun (out_A (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) ((hcond3_0 ⟨0, h⟩).mpr rfl) (idsBlk V c ⟨0, h⟩) (hBlk V c ⟨0, h⟩)) (ix2 g j)).trans ?_
    refine (step_apply (idsBlk V c ⟨0, h⟩) (hBlk V c ⟨0, h⟩) (k3_pay1 (F := Ideal)) g j).trans ?_
    exact congrArg₂ (· + ·) (zeroBlock_apply (ix2 g j)) (step_sum V c ⟨0, h⟩ g j)
  | n + 1, h => by
    have hN : cfg3.N = 10 := N_3
    have hB : ¬(⟨n + 1, h⟩ : Fin cfg3.N).val % 10 = 0 := by dsimp only; omega
    refine (congrFun (outsAt3_B V c ⟨n + 1, h⟩ hB) (ix2 g j)).trans ?_
    refine (congrFun (out_B (F := Ideal) c (grid3.coords ⟨n + 1, h⟩) (ms3_0 ⟨n + 1, h⟩) (hs3_0 ⟨n + 1, h⟩) (ms3_1 ⟨n + 1, h⟩) (hs3_1 ⟨n + 1, h⟩)
      (ms3_2 ⟨n + 1, h⟩) (hs3_2 ⟨n + 1, h⟩) (fun hh => hB ((hcond3_0 ⟨n + 1, h⟩).mp hh)) (idsBlk V c ⟨n + 1, h⟩) (hBlk V c ⟨n + 1, h⟩)
      (outsAt3 V c n (Nat.lt_of_succ_lt h))) (ix2 g j)).trans ?_
    refine (step_apply (idsBlk V c ⟨n + 1, h⟩) (hBlk V c ⟨n + 1, h⟩) (outsAt3 V c n (Nat.lt_of_succ_lt h)) g j).trans ?_
    exact congrArg₂ (· + ·) (outsAt_apply c g j n (Nat.lt_of_succ_lt h)) (step_sum V c ⟨n + 1, h⟩ g j)

/-- The pooled array, as contents of the output array. -/
abbrev result (c : Dev nD) : Buf (Elt Ideal) ((c : Thread nD τ).loc main_v38) :=
  (pool (fun n => batArr V c (ix2 n 0)) (hArr V c) : FVec Ideal S128x128 .f32)

/-- After the last point the output block is the pooled array: the ten block sums laid end to end are the sum over
    all 20000 nodes. -/
theorem outsAt_last (c : Dev nD) (h : 9 < cfg3.N) : outsAt3 V c 9 h = result V c := by
  funext i
  obtain ⟨g, j, rfl⟩ : ∃ (g j : Fin 128), i = ix2 g j := ⟨i 0, i 1, eq_ix2 i⟩
  refine (outsAt_apply V c g j 9 h).trans ?_
  rw [accUpTo_eq_sum]
  show ∑ s ∈ Finset.range 10, ∑ r ∈ Finset.range 2000, termAt V c g j (2000 * s + r) = poolAt _ _ g j
  rw [sum_blocks (termAt V c g j) 2000 10]
  unfold poolAt
  rw [Finset.sum_range]
  exact Finset.sum_congr rfl fun n _ => dif_pos n.isLt

/-- The one write-back, at the last point, writes it: the output's one block, read at zero offsets, is the array. -/
theorem flushed_eq (c : Dev nD) (t : Fin cfg3.N) (hf : (cfg3.win 2).flush t = true) :
    (dat3 V c).flushed 2 t = ((cfg3.win 2).blk t).view.read (Elt Ideal) (result V c) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_2, show outsAt3 V c t3_9.val t3_9.isLt = result V c from outsAt_last V c _]
  have hz' : (fun a => win3_2.index t3_9 a * main_v38.ty.shape.size a) = fun _ => 0 := funext fun a => by fin_cases a <;> decide
  exact (Memref.read_access_unit_zero (Elt Ideal) main_v38 hz' (fun a => by rw [congrFun hz' a]; simp) (result V c)).symm

/-- After region 3 its output array is the pooled features: for graph `g` and feature `j` the sum over the nodes whose
    graph id (the column `main_v37`) is `g` of the last layer's activations `main_v36`. -/
theorem final (c : Dev nD) :
    (dat3 (F := Ideal) V c).arrAt 2 cfg3.N
      = (pool (fun n => (V c main_v37 : IVec S20000x1 32) (ix2 n 0)) (V c main_v36) : FVec Ideal S128x128 .f32) :=
  (dat3 V c).arrAt_eq_of_cover 2 (result V c) (flushed_eq V c) fun i =>
    ⟨t3_9, (flush3_2 t3_9).mpr rfl, by
      show i ∈ ((View.whole main_v38).slice (win3_2.rect t3_9)).set
      rw [View.set_slice_whole, Rect.mem_set_unit]
      intro a
      have h0 : (i 0 : Nat) < 128 := (i 0).isLt
      have h1 : (i 1 : Nat) < 128 := (i 1).isLt
      match a with
      | ⟨0, _⟩ => show win3_2.index t3_9 0 * win3_2.size 0 ≤ (i 0 : Nat) ∧ (i 0 : Nat) < win3_2.index t3_9 0 * win3_2.size 0 + win3_2.xsize (grid3.coords t3_9) 0
                  rw [show win3_2.index t3_9 0 * win3_2.size 0 = 0 from by decide +kernel, show win3_2.xsize (grid3.coords t3_9) 0 = 128 from by decide +kernel]; omega
      | ⟨1, _⟩ => show win3_2.index t3_9 1 * win3_2.size 1 ≤ (i 1 : Nat) ∧ (i 1 : Nat) < win3_2.index t3_9 1 * win3_2.size 1 + win3_2.xsize (grid3.coords t3_9) 1
                  rw [show win3_2.index t3_9 1 * win3_2.size 1 = 0 from by decide +kernel, show win3_2.xsize (grid3.coords t3_9) 1 = 128 from by decide +kernel]; omega⟩

end Cert.KernelIdeal.PoolValue

end
-- ==== Proof.KernelChain.lean ====
/- The kernel's program read end to end: the result buffer after the last host stretch, as the network of the launch arguments. -/
import proofs.«427853_j39633958208177_1_alg».proof.Proof.Gen.KernelIdeal.Frame
import proofs.«427853_j39633958208177_1_alg».proof.Proof.Model
import proofs.«427853_j39633958208177_1_alg».proof.Proof.LayerValue0
import proofs.«427853_j39633958208177_1_alg».proof.Proof.LayerValue1
import proofs.«427853_j39633958208177_1_alg».proof.Proof.LayerValue2
import proofs.«427853_j39633958208177_1_alg».proof.Proof.PoolValue
import Idealize.ShloMosaic.Lib.StableHlo.Run
import Idealize.ShloMosaic.Lib.Pipeline.Value

noncomputable section

open Idealize.ShloMosaic Idealize.ShloMosaic.TcCoe Idealize.ShloMosaic.ValueIdx Idealize.SL.Sem
open Cert.KernelIdeal Cert.KernelIdeal.Gen Cert.GraphSpec

namespace Cert.KernelIdeal.ChainValue

/-! ## The shared host operations, over the edge list's two rows

The program computes the source column afresh before each layer, every time from the same row buffer; so the
operations are named here over the ROWS, and the model's spelling over the edge list is these at the edge list's rows. -/

/-- The edge list's source row. -/
def srcRow (ei : IVec S2x640000 32) : IVec S640000 32 :=
  shapeCast S640000 (extractStridedSlice S1x640000 ![0, 0] ei slices_S2x640000_S1x640000_0_0) shapeCasts_S1x640000_S640000

/-- The edge list's target row. -/
def dstRow (ei : IVec S2x640000 32) : IVec S640000 32 :=
  shapeCast S640000 (extractStridedSlice S1x640000 ![1, 0] ei slices_S2x640000_S1x640000_1_0) shapeCasts_S1x640000_S640000

/-- A source row as an index column, a negative id `s` read as `s + 20000`. -/
def srcCol (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 20000#32))) s)

/-- A target row as an index column. -/
def dstCol (d : IVec S640000 32) : IVec S640000x1 32 :=
  broadcastInDim S640000x1 ![0] bcast_S640000_S640000x1_0 d

/-- The neighbourhood sum of a 64-feature array, over the two rows. -/
def aggRows64 (x : FVec Ideal S20000x64 .f32) (s d : IVec S640000 32) : FVec Ideal S20000x64 .f32 :=
  Host.scatterAdd scatter_S20000x64_S640000x1_S640000x64_1_0_0_1
    (broadcastInDim S20000x64 ![] bcast_S_S20000x64 (constant S_ .f32 0x00000000#32))
    (dstCol d)
    (Host.gather gather_S20000x64_S640000x1_S640000x64_1_0_n_n_0_1_164 x (srcCol s))

/-- The neighbourhood sum of a 128-feature array, over the two rows. -/
def aggRows128 (h : FVec Ideal S20000x128 .f32) (s d : IVec S640000 32) : FVec Ideal S20000x128 .f32 :=
  Host.scatterAdd scatter_S20000x128_S640000x1_S640000x128_1_0_0_1
    (broadcastInDim S20000x128 ![] bcast_S_S20000x128 (constant S_ .f32 0x00000000#32))
    (dstCol d)
    (Host.gather gather_S20000x128_S640000x1_S640000x128_1_0_n_n_0_1_1128 h (srcCol s))

/-- The model's 64-feature neighbourhood sum is the one over the edge list's rows. -/
theorem agg64_eq (x : FVec Ideal S20000x64 .f32) (ei : IVec S2x640000 32) :
    Cert.Model.agg64 x ei = aggRows64 x (srcRow ei) (dstRow ei) := rfl

/-- The model's 128-feature neighbourhood sum is the one over the edge list's rows. -/
theorem agg128_eq (h : FVec Ideal S20000x128 .f32) (ei : IVec S2x640000 32) :
    Cert.Model.agg128 h ei = aggRows128 h (srcRow ei) (dstRow ei) := rfl

/-! ## Each host stretch, from any contents

What a stretch leaves in the buffers the rest of the program reads, as a function of the contents it started from. -/

section Stretches

variable (Vv : Valuation τ sig (Elt Ideal))

/-- The first stretch leaves the source row in its buffer. -/
theorem stretch0_src :
    StableHlo.after hostOps0 Vv (Proc.devRef .tc main_v1) = srcRow (Vv (Proc.devRef .tc main_arg1)) := by
  after_results; rfl

/-- The first stretch leaves the target row in its buffer. -/
theorem stretch0_dst :
    StableHlo.after hostOps0 Vv (Proc.devRef .tc main_v3) = dstRow (Vv (Proc.devRef .tc main_arg1)) := by
  after_results; rfl

/-- The first stretch leaves the neighbourhood sums of the node features. -/
theorem stretch0_agg :
    StableHlo.after hostOps0 Vv (Proc.devRef .tc main_v13)
      = Cert.Model.agg64 (Vv (Proc.devRef .tc main_arg0)) (Vv (Proc.devRef .tc main_arg1)) := by
  after_results; rfl

/-- The second stretch leaves the neighbourhood sums of layer 1's activations. -/
theorem stretch1_agg :
    StableHlo.after hostOps1 Vv (Proc.devRef .tc main_v24)
      = aggRows128 (Vv (Proc.devRef .tc main_v14)) (Vv (Proc.devRef .tc main_v1)) (Vv (Proc.devRef .tc main_v3)) := by
  after_results; rfl

/-- The third stretch leaves the neighbourhood sums of layer 2's activations. -/
theorem stretch2_agg :
    StableHlo.after hostOps2 Vv (Proc.devRef .tc main_v35)
      = aggRows128 (Vv (Proc.devRef .tc main_v25)) (Vv (Proc.devRef .tc main_v1)) (Vv (Proc.devRef .tc main_v3)) := by
  after_results; rfl

/-- The fourth stretch leaves the graph ids as a column. -/
theorem stretch3_col :
    StableHlo.after hostOps3 Vv (Proc.devRef .tc main_v37)
      = (shapeCast S20000x1 (Vv (Proc.devRef .tc main_arg2) : IVec S20000 32) shapeCasts_S20000_S20000x1 : IVec S20000x1 32) := by
  after_results; rfl

/-- The fifth stretch leaves the classifier's scores of the pooled features. -/
theorem stretch4_logits :
    StableHlo.after hostOps4 Vv (Proc.devRef .tc main_v42)
      = Cert.Model.logits (Vv (Proc.devRef .tc main_v38)) (Vv (Proc.devRef .tc main_arg12)) (Vv (Proc.devRef .tc main_arg13)) := by
  after_results; rfl

/-- The last stretch leaves the row-wise log-softmax of the scores. -/
theorem stretch5_logSoftmax :
    StableHlo.after hostOps4_1 Vv (Proc.devRef .tc main_v43)
      = Cert.Model.logSoftmax (Vv (Proc.devRef .tc main_v42)) := by
  after_results; rfl

end Stretches

/-! ## What a stretch or a region does not write -/

section Keeps

variable (Vv : Valuation τ sig (Elt Ideal)) (r : Ref sig .tc)

/-- The buffers the first stretch writes. -/
abbrev written0 : List (Ref sig .tc) :=
  [main_v0, main_v1, main_v2, main_v3, main_c, main_v4, main_v5, main_c_0, main_v6, main_v7, main_v8, main_v9, main_v10,
    main_cst, main_v11, main_v12, main_v13]
/-- The buffers the second stretch writes. -/
abbrev written1 : List (Ref sig .tc) :=
  [main_c_1, main_v15, main_v16, main_c_2, main_v17, main_v18, main_v19, main_v20, main_v21, main_cst_3, main_v22, main_v23,
    main_v24]
/-- The buffers the third stretch writes. -/
abbrev written2 : List (Ref sig .tc) :=
  [main_c_4, main_v26, main_v27, main_c_5, main_v28, main_v29, main_v30, main_v31, main_v32, main_cst_6, main_v33, main_v34,
    main_v35]

/-- A buffer the first stretch does not write holds after it what it held before. -/
theorem keeps0 (h : ∀ y ∈ written0, r ≠ y) :
    StableHlo.after hostOps0 Vv (Proc.devRef .tc r) = Vv (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (h _ (by decide))))

/-- A buffer the second stretch does not write holds after it what it held before. -/
theorem keeps1 (h : ∀ y ∈ written1, r ≠ y) :
    StableHlo.after hostOps1 Vv (Proc.devRef .tc r) = Vv (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (h _ (by decide))))

/-- A buffer the third stretch does not write holds after it what it held before. -/
theorem keeps2 (h : ∀ y ∈ written2, r ≠ y) :
    StableHlo.after hostOps2 Vv (Proc.devRef .tc r) = Vv (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (h _ (by decide))))

/-- A buffer other than the graph-id column holds after the fourth stretch what it held before. -/
theorem keeps3 (h : r ≠ main_v37) :
    StableHlo.after hostOps3 Vv (Proc.devRef .tc r) = Vv (Proc.devRef .tc r) :=
  StableHlo.after_of_forall_not_mem (b := Proc.devRef .tc r) _ _ (List.forall_iff_forall_mem.mp (by
    simp only [hostOps3, List.Forall, StableHlo.reshape_writes, Finset.mem_singleton]
    exact StableHlo.devRef_ne_of_ne h))

end Keeps

/-! ## The program, segment by segment

`m` is the launch memory. Each lemma names what one buffer holds at one segment boundary, in terms of the launch
arguments; a region's output array is read by its value theorem, a stretch's result by the lemmas above, and a buffer
nobody wrote in between is carried along. -/

section Chain

variable (m : (ℓ : Loc nD τ sig) → Buf (Elt Ideal) ℓ) (ρ : Dev nD → PrngReg) (c : Dev nD)

/-- Layer 1's activations of the launch arguments. -/
abbrev act1 : FVec Ideal S20000x128 .f32 :=
  Cert.Model.h1 (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))

/-- Layer 2's activations of the launch arguments. -/
abbrev act2 : FVec Ideal S20000x128 .f32 :=
  Cert.Model.hNext (act1 m c) (m ((c.tc : Thread nD τ).loc main_arg1))
    (m ((c.tc : Thread nD τ).loc main_arg6)) (m ((c.tc : Thread nD τ).loc main_arg7)) (m ((c.tc : Thread nD τ).loc main_arg8))

/-- Layer 3's activations of the launch arguments. -/
abbrev act3 : FVec Ideal S20000x128 .f32 :=
  Cert.Model.hNext (act2 m c) (m ((c.tc : Thread nD τ).loc main_arg1))
    (m ((c.tc : Thread nD τ).loc main_arg9)) (m ((c.tc : Thread nD τ).loc main_arg10)) (m ((c.tc : Thread nD τ).loc main_arg11))

/-! ### Buffers carried from the launch -/

/-- At the first region's entry, a buffer the first stretch did not write holds what it was launched with. -/
theorem launch_at1 (r : Ref sig .tc) (h0 : ∀ y ∈ written0, r ≠ y) :
    W1 m ρ c (Proc.devRef .tc r) = m ((c.tc : Thread nD τ).loc r) :=
  keeps0 (W0 m ρ c) r h0

/-- … and so at the second region's entry, if neither the first region nor the second stretch wrote it. -/
theorem launch_at3 (r : Ref sig .tc) (h0 : ∀ y ∈ written0, r ≠ y) (hr0 : ∀ w, Pipeline.arrRef spec0 w ≠ r)
    (h1 : ∀ y ∈ written1, r ≠ y) :
    W3 m ρ c (Proc.devRef .tc r) = m ((c.tc : Thread nD τ).loc r) :=
  (keeps1 (W2 m ρ c) r h1).trans ((W2_of_ne m ρ c r hr0).trans (launch_at1 m ρ c r h0))

/-- … and at the third region's entry. -/
theorem launch_at5 (r : Ref sig .tc) (h0 : ∀ y ∈ written0, r ≠ y) (hr0 : ∀ w, Pipeline.arrRef spec0 w ≠ r)
    (h1 : ∀ y ∈ written1, r ≠ y) (hr1 : ∀ w, Pipeline.arrRef spec1 w ≠ r) (h2 : ∀ y ∈ written2, r ≠ y) :
    W5 m ρ c (Proc.devRef .tc r) = m ((c.tc : Thread nD τ).loc r) :=
  (keeps2 (W4 m ρ c) r h2).trans ((W4_of_ne m ρ c r hr1).trans (launch_at3 m ρ c r h0 hr0 h1))

/-- … and at the third region's exit. -/
theorem launch_at6 (r : Ref sig .tc) (h0 : ∀ y ∈ written0, r ≠ y) (hr0 : ∀ w, Pipeline.arrRef spec0 w ≠ r)
    (h1 : ∀ y ∈ written1, r ≠ y) (hr1 : ∀ w, Pipeline.arrRef spec1 w ≠ r) (h2 : ∀ y ∈ written2, r ≠ y)
    (hr2 : ∀ w, Pipeline.arrRef spec2 w ≠ r) :
    W6 m ρ c (Proc.devRef .tc r) = m ((c.tc : Thread nD τ).loc r) :=
  (W6_of_ne m ρ c r hr2).trans (launch_at5 m ρ c r h0 hr0 h1 hr1 h2)

/-- … and at the last region's exit. -/
theorem launch_at8 (r : Ref sig .tc) (h0 : ∀ y ∈ written0, r ≠ y) (hr0 : ∀ w, Pipeline.arrRef spec0 w ≠ r)
    (h1 : ∀ y ∈ written1, r ≠ y) (hr1 : ∀ w, Pipeline.arrRef spec1 w ≠ r) (h2 : ∀ y ∈ written2, r ≠ y)
    (hr2 : ∀ w, Pipeline.arrRef spec2 w ≠ r) (h3 : r ≠ main_v37) (hr3 : ∀ w, Pipeline.arrRef spec3 w ≠ r) :
    W8 m ρ c (Proc.devRef .tc r) = m ((c.tc : Thread nD τ).loc r) :=
  (W8_of_ne m ρ c r hr3).trans ((keeps3 (W6 m ρ c) r h3).trans (launch_at6 m ρ c r h0 hr0 h1 hr1 h2 hr2))

/-! ### The edge rows -/

/-- The source row at the first region's entry. -/
theorem src_at1 : W1 m ρ c (Proc.devRef .tc main_v1) = srcRow (m ((c.tc : Thread nD τ).loc main_arg1)) :=
  stretch0_src (W0 m ρ c)
/-- The source row at the first region's exit. -/
theorem src_at2 : W2 m ρ c (Proc.devRef .tc main_v1) = srcRow (m ((c.tc : Thread nD τ).loc main_arg1)) :=
  (W2_of_ne m ρ c main_v1 (by decide)).trans (src_at1 m ρ c)
/-- The source row at the second region's entry. -/
theorem src_at3 : W3 m ρ c (Proc.devRef .tc main_v1) = srcRow (m ((c.tc : Thread nD τ).loc main_arg1)) :=
  (keeps1 (W2 m ρ c) main_v1 (by decide)).trans (src_at2 m ρ c)
/-- The source row at the second region's exit. -/
theorem src_at4 : W4 m ρ c (Proc.devRef .tc main_v1) = srcRow (m ((c.tc : Thread nD τ).loc main_arg1)) :=
  (W4_of_ne m ρ c main_v1 (by decide)).trans (src_at3 m ρ c)

/-- The target row at the first region's entry. -/
theorem dst_at1 : W1 m ρ c (Proc.devRef .tc main_v3) = dstRow (m ((c.tc : Thread nD τ).loc main_arg1)) :=
  stretch0_dst (W0 m ρ c)
/-- The target row at the first region's exit. -/
theorem dst_at2 : W2 m ρ c (Proc.devRef .tc main_v3) = dstRow (m ((c.tc : Thread nD τ).loc main_arg1)) :=
  (W2_of_ne m ρ c main_v3 (by decide)).trans (dst_at1 m ρ c)
/-- The target row at the second region's entry. -/
theorem dst_at3 : W3 m ρ c (Proc.devRef .tc main_v3) = dstRow (m ((c.tc : Thread nD τ).loc main_arg1)) :=
  (keeps1 (W2 m ρ c) main_v3 (by decide)).trans (dst_at2 m ρ c)
/-- The target row at the second region's exit. -/
theorem dst_at4 : W4 m ρ c (Proc.devRef .tc main_v3) = dstRow (m ((c.tc : Thread nD τ).loc main_arg1)) :=
  (W4_of_ne m ρ c main_v3 (by decide)).trans (dst_at3 m ρ c)

/-! ### Layer 1 -/

/-- At the first region's entry the aggregate buffer holds the neighbourhood sums of the node features. -/
theorem agg_at1 :
    W1 m ρ c (Proc.devRef .tc main_v13)
      = Cert.Model.agg64 (m ((c.tc : Thread nD τ).loc main_arg0)) (m ((c.tc : Thread nD τ).loc main_arg1)) :=
  stretch0_agg (W0 m ρ c)

/-- At the first region's exit its output array holds layer 1's activations. -/
theorem act1_at2 : W2 m ρ c (Proc.devRef .tc main_v14) = act1 m c := by
  refine (W2_arr m ρ c 5).trans ((LayerValue0.final (V1 m ρ) c).trans ?_)
  show dense64 (W1 m ρ c (Proc.devRef .tc main_v13)) (W1 m ρ c (Proc.devRef .tc main_arg0))
    (W1 m ρ c (Proc.devRef .tc main_arg3)) (W1 m ρ c (Proc.devRef .tc main_arg5)) (W1 m ρ c (Proc.devRef .tc main_arg4)) = _
  rw [agg_at1, launch_at1 m ρ c main_arg0 (by decide), launch_at1 m ρ c main_arg3 (by decide),
    launch_at1 m ρ c main_arg5 (by decide), launch_at1 m ρ c main_arg4 (by decide)]
  rfl

/-! ### Layer 2 -/

/-- At the second region's entry the first region's output is still layer 1's activations. -/
theorem act1_at3 : W3 m ρ c (Proc.devRef .tc main_v14) = act1 m c :=
  (keeps1 (W2 m ρ c) main_v14 (by decide)).trans (act1_at2 m ρ c)

/-- At the second region's entry the aggregate buffer holds the neighbourhood sums of layer 1's activations. -/
theorem agg_at3 :
    W3 m ρ c (Proc.devRef .tc main_v24) = Cert.Model.agg128 (act1 m c) (m ((c.tc : Thread nD τ).loc main_arg1)) := by
  refine (stretch1_agg (W2 m ρ c)).trans ?_
  rw [act1_at2, src_at2, dst_at2, ← agg128_eq]

/-- At the second region's exit its output array holds layer 2's activations. -/
theorem act2_at4 : W4 m ρ c (Proc.devRef .tc main_v25) = act2 m c := by
  refine (W4_arr m ρ c 5).trans ((LayerValue1.final (V3 m ρ) c).trans ?_)
  show dense128 (W3 m ρ c (Proc.devRef .tc main_v24)) (W3 m ρ c (Proc.devRef .tc main_v14))
    (W3 m ρ c (Proc.devRef .tc main_arg6)) (W3 m ρ c (Proc.devRef .tc main_arg8)) (W3 m ρ c (Proc.devRef .tc main_arg7)) = _
  rw [agg_at3, act1_at3, launch_at3 m ρ c main_arg6 (by decide) (by decide) (by decide),
    launch_at3 m ρ c main_arg8 (by decide) (by decide) (by decide),
    launch_at3 m ρ c main_arg7 (by decide) (by decide) (by decide)]
  rfl

/-! ### Layer 3 -/

/-- At the third region's entry the second region's output is still layer 2's activations. -/
theorem act2_at5 : W5 m ρ c (Proc.devRef .tc main_v25) = act2 m c :=
  (keeps2 (W4 m ρ c) main_v25 (by decide)).trans (act2_at4 m ρ c)

/-- At the third region's entry the aggregate buffer holds the neighbourhood sums of layer 2's activations. -/
theorem agg_at5 :
    W5 m ρ c (Proc.devRef .tc main_v35) = Cert.Model.agg128 (act2 m c) (m ((c.tc : Thread nD τ).loc main_arg1)) := by
  refine (stretch2_agg (W4 m ρ c)).trans ?_
  rw [act2_at4, src_at4, dst_at4, ← agg128_eq]

/-- At the third region's exit its output array holds layer 3's activations. -/
theorem act3_at6 : W6 m ρ c (Proc.devRef .tc main_v36) = act3 m c := by
  refine (W6_arr m ρ c 5).trans ((LayerValue2.final (V5 m ρ) c).trans ?_)
  show dense128 (W5 m ρ c (Proc.devRef .tc main_v35)) (W5 m ρ c (Proc.devRef .tc main_v25))
    (W5 m ρ c (Proc.devRef .tc main_arg9)) (W5 m ρ c (Proc.devRef .tc main_arg11)) (W5 m ρ c (Proc.devRef .tc main_arg10)) = _
  rw [agg_at5, act2_at5,
    launch_at5 m ρ c main_arg9 (by decide) (by decide) (by decide) (by decide) (by decide),
    launch_at5 m ρ c main_arg11 (by decide) (by decide) (by decide) (by decide) (by decide),
    launch_at5 m ρ c main_arg10 (by decide) (by decide) (by decide) (by decide) (by decide)]
  rfl

/-! ### The pool -/

/-- At the last region's entry the third region's output is still layer 3's activations. -/
theorem act3_at7 : W7 m ρ c (Proc.devRef .tc main_v36) = act3 m c :=
  (keeps3 (W6 m ρ c) main_v36 (by decide)).trans (act3_at6 m ρ c)

/-- The graph-id column read at node `n` is the launch's graph-id vector at `n`: a vector reshaped to a column keeps
    its row-major order. -/
theorem ids_at7 (n : Fin 20000) :
    (W7 m ρ c (Proc.devRef .tc main_v37) : IVec S20000x1 32) (ix2 n 0)
      = (m ((c.tc : Thread nD τ).loc main_arg2) : IVec S20000 32) (ix1 n) := by
  rw [show W7 m ρ c (Proc.devRef .tc main_v37) = _ from stretch3_col (W6 m ρ c),
    launch_at6 m ρ c main_arg2 (by decide) (by decide) (by decide) (by decide) (by decide) (by decide)]
  refine shapeCast_apply _ _ _ (ix1 n) ?_
  rw [Shape.rowMajor_val_one, Shape.rowMajor_val_two]
  simp

/-- At the last region's exit its output array holds the pooled features of layer 3's activations. -/
theorem pooled_at8 :
    W8 m ρ c (Proc.devRef .tc main_v38) = Cert.Model.pooled (m ((c.tc : Thread nD τ).loc main_arg2)) (act3 m c) := by
  refine (W8_arr m ρ c 2).trans ((PoolValue.final (V7 m ρ) c).trans ?_)
  exact congrArg₂ pool (funext (ids_at7 m ρ c)) (act3_at7 m ρ c)

/-! ### The classifier -/

/-- After the classifier's stretch the score buffer holds the scores of the pooled features. -/
theorem scores_at9 :
    W9 m ρ c (Proc.devRef .tc main_v42)
      = Cert.Model.logits (Cert.Model.pooled (m ((c.tc : Thread nD τ).loc main_arg2)) (act3 m c))
          (m ((c.tc : Thread nD τ).loc main_arg12)) (m ((c.tc : Thread nD τ).loc main_arg13)) := by
  refine (stretch4_logits (W8 m ρ c)).trans ?_
  rw [pooled_at8,
    launch_at8 m ρ c main_arg12 (by decide) (by decide) (by decide) (by decide) (by decide) (by decide) (by decide) (by decide),
    launch_at8 m ρ c main_arg13 (by decide) (by decide) (by decide) (by decide) (by decide) (by decide) (by decide) (by decide)]

end Chain

variable (m : (ℓ : Loc nD τ sig) → Buf (Elt Ideal) ℓ) (ρ : Dev nD → PrngReg)

/-- What the last host stretch leaves in the result buffer is the network of the arrays the program was launched on:
    each stretch of host operations and each region read in turn, a region's output array by its value theorem. -/
theorem result (c : Dev nD) :
    W10 (F := Ideal) m ρ c (Proc.devRef .tc main_v43)
      = (Cert.Model.net
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13)) : FVec Ideal S128x10 .f32) := by
  refine (stretch5_logSoftmax (W9 m ρ c)).trans ?_
  rw [scores_at9]
  rfl

end Cert.KernelIdeal.ChainValue

end
-- ==== Proof.RefPool.lean ====
/-
  The reference's global add-pool: a scatter-add of the 20000 node rows into an all-zero [128,128] array, read at one
  element.

  The scatter's dimension numbers say: the update (n, k) — row n, feature k — goes to operand row `idx[n, 0]`, read as a
  signed number, and operand column k; an update whose row falls outside 0 … 127 is dropped.  So element (g, j) of the
  result is the zero it started from plus the sum of h[n, j] over the nodes n with idx[n, 0] = g: the pooled feature.
  A 32-bit word reads as the signed number g < 128 exactly when it is the word of g, so "row id read signed is g" is the
  equality of words the pooled sum is stated with.
-/
import proofs.«427853_j39633958208177_1_alg».proof.ReferenceIdeal
import proofs.«427853_j39633958208177_1_alg».proof.Proof.Gen.ReferenceIdeal
import proofs.«427853_j39633958208177_1_alg».proof.Proof.Spec
import Idealize.ShloMosaic.PureOps.Ideal.Laws
import Idealize.ShloMosaic.Lib.ValueIdx

noncomputable section

open Idealize.ShloMosaic Idealize.ShloMosaic.ValueIdx
open Cert.ReferenceIdeal Cert.ReferenceIdeal.Gen Cert.GraphSpec

namespace Cert.ReferenceIdeal.RefPool

/-- The pool's scatter dimension numbers: update axis 1 is the window (the features), operand axis 0 is inserted and is
    the axis the ids index. -/
abbrev poolDims := scatter_S128x128_S20000x1_S20000x128_1_0_0_1

/-! ## Where an update lands -/

/-- On the operand's row axis the window contributes nothing (the axis is inserted). -/
theorem window_row (n : Fin 20000) (k : Fin 128) : poolDims.window (ix2 n k : S20000x128.Idx) (0 : Fin 2) = 0 := by
  unfold ScatterDims.window
  rw [dif_neg (by decide)]

/-- On the operand's column axis the window coordinate is the update's feature. -/
theorem window_col (n : Fin 20000) (k : Fin 128) : poolDims.window (ix2 n k : S20000x128.Idx) (1 : Fin 2) = k.val := by
  unfold ScatterDims.window
  rw [dif_pos (by decide)]
  rfl

/-- The ids name no column: the window starts at column 0. -/
theorem start_col (n : Fin 20000) (k : Fin 128) (idx : IVec S20000x1 32) :
    poolDims.start (ix2 n k : S20000x128.Idx) idx (1 : Fin 2) = 0 := by
  unfold ScatterDims.start
  rw [dif_neg (by decide)]

/-- The id an update of row `n` reads is entry (n, 0) of the id column, whatever its feature. -/
theorem id_entry (n : Fin 20000) (k : Fin 128) (c : Fin poolDims.scatterDimsToOperandDims.length) :
    poolDims.siIdx (ix2 n k : S20000x128.Idx) c = (ix2 n 0 : S20000x1.Idx) := by
  funext b
  match b with
  | ⟨0, _⟩ => rfl
  | ⟨1, _⟩ =>
    refine Fin.ext ?_
    have hc : c.val = 0 := by
      have := c.isLt
      simp [poolDims, scatter_S128x128_S20000x1_S20000x128_1_0_0_1] at this
      exact this
    unfold ScatterDims.siIdx
    rw [dif_pos (show ((⟨1, _⟩ : Fin S20000x1.rank) : Nat) = poolDims.indexVectorDim from rfl)]
    exact hc

/-- The window starts at the row the id names, read as a signed number. -/
theorem start_row (n : Fin 20000) (k : Fin 128) (idx : IVec S20000x1 32) :
    poolDims.start (ix2 n k : S20000x128.Idx) idx (0 : Fin 2) = (idx (ix2 n 0)).toInt := by
  unfold ScatterDims.start
  rw [dif_pos (by decide), id_entry]

/-- A graph number below 128, as a 32-bit word, reads back as itself when read signed. -/
theorem toInt_ofNat_small : ∀ g : Fin 128, (BitVec.ofNat 32 g.val).toInt = (g.val : Int) := by decide

/-- A 32-bit word reads as the signed number `g < 128` exactly when it is the word of `g`. -/
theorem toInt_eq_iff (x : BitVec 32) (g : Fin 128) : x.toInt = (g.val : Int) ↔ x = BitVec.ofNat 32 g.val := by
  constructor
  · intro hx
    exact BitVec.eq_of_toInt_eq (hx.trans (toInt_ofNat_small g).symm)
  · intro hx
    rw [hx]; exact toInt_ofNat_small g

/-- The update (n, k) lands on element (g, j) exactly when row `n`'s id reads as `g` and `k = j`; with an id outside
    0 … 127 it lands nowhere. -/
theorem lands_iff (n : Fin 20000) (k : Fin 128) (idx : IVec S20000x1 32) (g j : Fin 128) :
    poolDims.resultIdx? (ix2 n k : S20000x128.Idx) idx = some (ix2 g j : S128x128.Idx)
      ↔ (idx (ix2 n 0)).toInt = (g.val : Int) ∧ k = j := by
  have e0 : poolDims.start (ix2 n k : S20000x128.Idx) idx (0 : Fin 2) + (poolDims.window (ix2 n k : S20000x128.Idx) (0 : Fin 2) : Int) = (idx (ix2 n 0)).toInt := by
    rw [start_row, window_row]; simp
  have e1 : poolDims.start (ix2 n k : S20000x128.Idx) idx (1 : Fin 2) + (poolDims.window (ix2 n k : S20000x128.Idx) (1 : Fin 2) : Int) = (k.val : Int) := by
    rw [start_col, window_col]; simp
  have hg := g.isLt
  have hk := k.isLt
  have hj := j.isLt
  unfold ScatterDims.resultIdx?
  split
  · rename_i h
    rw [Option.some.injEq]
    constructor
    · intro hf
      have h0 : ((poolDims.start (ix2 n k : S20000x128.Idx) idx (0 : Fin 2) + (poolDims.window (ix2 n k : S20000x128.Idx) (0 : Fin 2) : Int)).toNat) = g.val :=
        congrArg (fun f : S128x128.Idx => (f (0 : Fin 2)).val) hf
      have h1 : ((poolDims.start (ix2 n k : S20000x128.Idx) idx (1 : Fin 2) + (poolDims.window (ix2 n k : S20000x128.Idx) (1 : Fin 2) : Int)).toNat) = j.val :=
        congrArg (fun f : S128x128.Idx => (f (1 : Fin 2)).val) hf
      have p0 := (h (0 : Fin 2)).1
      rw [e0] at h0 p0
      rw [e1] at h1
      exact ⟨by omega, Fin.ext (by omega)⟩
    · rintro ⟨ht, rfl⟩
      funext a
      match a with
      | ⟨0, _⟩ => exact Fin.ext (by show (poolDims.start (ix2 n k : S20000x128.Idx) idx (0 : Fin 2) + (poolDims.window (ix2 n k : S20000x128.Idx) (0 : Fin 2) : Int)).toNat = g.val; rw [e0]; omega)
      | ⟨1, _⟩ => exact Fin.ext (by show (poolDims.start (ix2 n k : S20000x128.Idx) idx (1 : Fin 2) + (poolDims.window (ix2 n k : S20000x128.Idx) (1 : Fin 2) : Int)).toNat = k.val; rw [e1]; omega)
  · rename_i h
    constructor
    · intro hf; exact absurd hf (by simp)
    · rintro ⟨ht, rfl⟩
      exfalso
      apply h
      intro a
      match a with
      | ⟨0, _⟩ => show 0 ≤ poolDims.start (ix2 n k : S20000x128.Idx) idx (0 : Fin 2) + (poolDims.window (ix2 n k : S20000x128.Idx) (0 : Fin 2) : Int) ∧ poolDims.start (ix2 n k : S20000x128.Idx) idx (0 : Fin 2) + (poolDims.window (ix2 n k : S20000x128.Idx) (0 : Fin 2) : Int) < (128 : Nat); rw [e0]; omega
      | ⟨1, _⟩ => show 0 ≤ poolDims.start (ix2 n k : S20000x128.Idx) idx (1 : Fin 2) + (poolDims.window (ix2 n k : S20000x128.Idx) (1 : Fin 2) : Int) ∧ poolDims.start (ix2 n k : S20000x128.Idx) idx (1 : Fin 2) + (poolDims.window (ix2 n k : S20000x128.Idx) (1 : Fin 2) : Int) < (128 : Nat); rw [e1]; omega

/-! ## The scatter-add is the pool -/

/-- Scatter-adding the rows of `h` into an all-zero [128,128] array at the row ids `idx` gives the pooled features: element
    (g, j) receives exactly the rows `n` whose id, read as a signed number, is `g`; an id outside 0 … 127 lands nowhere. -/
theorem scatter_eq_pool (z : FVec Ideal S128x128 .f32) (idx : IVec S20000x1 32) (h : FVec Ideal S20000x128 .f32)
    (hz : ∀ i, z i = 0) :
    Host.scatterAdd scatter_S128x128_S20000x1_S20000x128_1_0_0_1 z idx h
      = (pool (fun n => idx (ix2 n 0)) h : FVec Ideal S128x128 .f32) := by
  funext i
  obtain ⟨g, j, rfl⟩ : ∃ (g j : Fin 128), i = ix2 g j := ⟨i 0, i 1, eq_ix2 i⟩
  show Ideal.hostScatterAdd poolDims z idx h (ix2 g j) = poolAt (fun n => idx (ix2 n 0)) h g j
  unfold Ideal.hostScatterAdd poolAt
  rw [hz, zero_add, Finset.sum_filter, sum_idx2]
  refine Finset.sum_congr rfl fun n _ => ?_
  unfold poolTerm
  simp only [lands_iff, toInt_eq_iff]
  by_cases hn : idx (ix2 n 0) = BitVec.ofNat 32 g.val
  · simp only [hn, true_and]
    rw [Finset.sum_ite_eq' Finset.univ j]
    simp
  · simp [hn]

end Cert.ReferenceIdeal.RefPool

end
-- ==== Proof.RefValue.lean ====
/-
  The reference's program read end to end: its result term as the network of the launch arguments.

  Every stage of the reference is a function of the fourteen arguments.  Stage by stage:
  the neighbourhood sums (gather at the source column, scatter-add at the target column, from zero) are the shared
  host operations applied to the previous layer's activations; a layer's value at node `n`, feature `j` is
      max ( (∑ₖ agg[n,k] · wrel[k,j] + b[j]) + ∑ₖ x[n,k] · wroot[k,j] , 0 ),
  which is the specification's `max ((∑ agg·wrel + ∑ x·wroot) + b) 0` because addition of extended reals is commutative
  and associative; the scatter-add of the last layer's rows at the graph ids, into zero, is the pool; the classifier
  and the row-wise log-softmax are the shared host operations.  Each fact is an equation between functions of the
  arguments, so the result follows by rewriting, one stage after another.
-/
import proofs.«427853_j39633958208177_1_alg».proof.Proof.Gen.ReferenceIdeal.Read
import proofs.«427853_j39633958208177_1_alg».proof.Proof.Model
import proofs.«427853_j39633958208177_1_alg».proof.Proof.RefPool
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Cert.ReferenceIdeal Cert.ReferenceIdeal.Gen Cert.ReferenceIdeal.Read Cert.GraphSpec

namespace Cert.ReferenceIdeal.RefValue

/-! ## Layer 1 -/

/-- The reference's first neighbourhood sum is the shared one: the same slices, wrap of negative ids, gather and scatter-add. -/
theorem neighbourSum1_eq_agg64 (x0 : (⟨S20000x64, .f32⟩ : BufTy).Contents (Elt Ideal)) (x1 : (⟨S2x640000, .i32⟩ : BufTy).Contents (Elt Ideal)) :
    val_main_v13 (F := Ideal) x0 x1 = Cert.Model.agg64 x0 x1 := by
  unfold val_main_v13 val_main_v12 val_main_v11 val_main_v10 val_main_v9 val_main_v8 val_main_v7 val_main_v6 val_main_v5 val_main_v4 val_main_v3 val_main_v2 val_main_v1 val_main_v0 val_main_cst val_main_c val_main_c_0 Cert.Model.agg64 Cert.Model.srcIdx Cert.Model.dstIdx
  rfl

/-- Layer 1 at node `n`, feature `j`: `max ((∑ agg·wrel + b) + ∑ x·wroot) 0`, the bias moved past the root term. -/
theorem layer1_eq_h1 (x0 : (⟨S20000x64, .f32⟩ : BufTy).Contents (Elt Ideal)) (x1 : (⟨S2x640000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) :
    val_main_v20 (F := Ideal) x0 x1 x3 x4 x5 = Cert.Model.h1 x0 x1 x3 x4 x5 := by
  funext i
  obtain ⟨n, j, rfl⟩ : ∃ (n : Fin 20000) (j : Fin 128), i = ix2 n j := ⟨i 0, i 1, eq_ix2 i⟩
  have hl : ∀ k : Fin 64, lidx_main_v14 (ix2 n j) k = ix2 n k := fun k => funext fun a => Fin.ext (by match a with | ⟨0, _⟩ => rfl | ⟨1, _⟩ => rfl)
  have hr : ∀ k : Fin 64, ridx_main_v14 (ix2 n j) k = ix2 k j := fun k => funext fun a => Fin.ext (by match a with | ⟨0, _⟩ => rfl | ⟨1, _⟩ => rfl)
  have hl' : ∀ k : Fin 64, lidx_main_v18 (ix2 n j) k = ix2 n k := fun k => funext fun a => Fin.ext (by match a with | ⟨0, _⟩ => rfl | ⟨1, _⟩ => rfl)
  have hr' : ∀ k : Fin 64, ridx_main_v18 (ix2 n j) k = ix2 k j := fun k => funext fun a => Fin.ext (by match a with | ⟨0, _⟩ => rfl | ⟨1, _⟩ => rfl)
  have hb : idx_main_v15 (idx_main_v16 (ix2 n j)) = ix1 j := funext fun a => Fin.ext (by match a with | ⟨0, _⟩ => rfl)
  rw [val_main_v20_apply, val_main_v19_apply, val_main_v17_apply, val_main_v14_apply, val_main_v16_apply,
    val_main_v15_apply, val_main_v18_apply, val_main_call0_v0_apply, val_main_call0_cst_apply]
  simp only [hl, hr, hl', hr', hb, neighbourSum1_eq_agg64, Ideal.addf_def, Ideal.maximumf_def, Ideal.ofBits_def, Ideal.ofBits_zero_f32]
  rw [bias_first]
  rfl

/-! ## Layer 2 -/

/-- The source column of a later layer is the same column: first row of the edge list, a negative id wrapped by 20000. -/
theorem sources2_eq_srcIdx (x1 : (⟨S2x640000, .i32⟩ : BufTy).Contents (Elt Ideal)) : val_main_v26 (F := Ideal) x1 = Cert.Model.srcIdx x1 := by
  unfold val_main_v26 val_main_v25 val_main_v24 val_main_v23 val_main_v22 val_main_v21 val_main_c_1 val_main_c_2 val_main_v1 val_main_v0 Cert.Model.srcIdx
  rfl

/-- The target column of a later layer is the same column: second row of the edge list. -/
theorem targets2_eq_dstIdx (x1 : (⟨S2x640000, .i32⟩ : BufTy).Contents (Elt Ideal)) : val_main_v29 (F := Ideal) x1 = Cert.Model.dstIdx x1 := by
  unfold val_main_v29 val_main_v3 val_main_v2 Cert.Model.dstIdx
  rfl

/-- The second neighbourhood sum is the shared one of layer 1's activations. -/
theorem neighbourSum2_eq_agg128 (x0 : (⟨S20000x64, .f32⟩ : BufTy).Contents (Elt Ideal)) (x1 : (⟨S2x640000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) :
    val_main_v30 (F := Ideal) x0 x1 x3 x4 x5 = Cert.Model.agg128 (val_main_v20 (F := Ideal) x0 x1 x3 x4 x5) x1 := by
  unfold val_main_v30 val_main_v27 val_main_v28 val_main_cst_3
  rw [sources2_eq_srcIdx, targets2_eq_dstIdx]
  generalize val_main_v20 (F := Ideal) x0 x1 x3 x4 x5 = h
  unfold Cert.Model.agg128
  rfl

/-- Layer 2 from layer 1's activations, at node `n`, feature `j`. -/
theorem layer2_eq_hNext (x0 : (⟨S20000x64, .f32⟩ : BufTy).Contents (Elt Ideal)) (x1 : (⟨S2x640000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v37 (F := Ideal) x0 x1 x3 x4 x5 x6 x7 x8 = Cert.Model.hNext (val_main_v20 (F := Ideal) x0 x1 x3 x4 x5) x1 x6 x7 x8 := by
  funext i
  obtain ⟨n, j, rfl⟩ : ∃ (n : Fin 20000) (j : Fin 128), i = ix2 n j := ⟨i 0, i 1, eq_ix2 i⟩
  have hl : ∀ k : Fin 128, lidx_main_v31 (ix2 n j) k = ix2 n k := fun k => funext fun a => Fin.ext (by match a with | ⟨0, _⟩ => rfl | ⟨1, _⟩ => rfl)
  have hr : ∀ k : Fin 128, ridx_main_v31 (ix2 n j) k = ix2 k j := fun k => funext fun a => Fin.ext (by match a with | ⟨0, _⟩ => rfl | ⟨1, _⟩ => rfl)
  have hl' : ∀ k : Fin 128, lidx_main_v35 (ix2 n j) k = ix2 n k := fun k => funext fun a => Fin.ext (by match a with | ⟨0, _⟩ => rfl | ⟨1, _⟩ => rfl)
  have hr' : ∀ k : Fin 128, ridx_main_v35 (ix2 n j) k = ix2 k j := fun k => funext fun a => Fin.ext (by match a with | ⟨0, _⟩ => rfl | ⟨1, _⟩ => rfl)
  have hb : idx_main_v32 (idx_main_v33 (ix2 n j)) = ix1 j := funext fun a => Fin.ext (by match a with | ⟨0, _⟩ => rfl)
  rw [val_main_v37_apply, val_main_v36_apply, val_main_v34_apply, val_main_v31_apply, val_main_v33_apply,
    val_main_v32_apply, val_main_v35_apply, val_main_call1_v0_apply, val_main_call1_cst_apply]
  simp only [hl, hr, hl', hr', hb, neighbourSum2_eq_agg128, Ideal.addf_def, Ideal.maximumf_def, Ideal.ofBits_def, Ideal.ofBits_zero_f32]
  generalize val_main_v20 (F := Ideal) x0 x1 x3 x4 x5 = h
  rw [bias_first]
  rfl

/-! ## Layer 3 -/

/-- The source column of a later layer is the same column: first row of the edge list, a negative id wrapped by 20000. -/
theorem sources3_eq_srcIdx (x1 : (⟨S2x640000, .i32⟩ : BufTy).Contents (Elt Ideal)) : val_main_v43 (F := Ideal) x1 = Cert.Model.srcIdx x1 := by
  unfold val_main_v43 val_main_v42 val_main_v41 val_main_v40 val_main_v39 val_main_v38 val_main_c_4 val_main_c_5 val_main_v1 val_main_v0 Cert.Model.srcIdx
  rfl

/-- The target column of a later layer is the same column: second row of the edge list. -/
theorem targets3_eq_dstIdx (x1 : (⟨S2x640000, .i32⟩ : BufTy).Contents (Elt Ideal)) : val_main_v46 (F := Ideal) x1 = Cert.Model.dstIdx x1 := by
  unfold val_main_v46 val_main_v3 val_main_v2 Cert.Model.dstIdx
  rfl

/-- The third neighbourhood sum is the shared one of layer 2's activations. -/
theorem neighbourSum3_eq_agg128 (x0 : (⟨S20000x64, .f32⟩ : BufTy).Contents (Elt Ideal)) (x1 : (⟨S2x640000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v47 (F := Ideal) x0 x1 x3 x4 x5 x6 x7 x8 = Cert.Model.agg128 (val_main_v37 (F := Ideal) x0 x1 x3 x4 x5 x6 x7 x8) x1 := by
  unfold val_main_v47 val_main_v44 val_main_v45 val_main_cst_6
  rw [sources3_eq_srcIdx, targets3_eq_dstIdx]
  generalize val_main_v37 (F := Ideal) x0 x1 x3 x4 x5 x6 x7 x8 = h
  unfold Cert.Model.agg128
  rfl

/-- Layer 3 from layer 2's activations, at node `n`, feature `j`. -/
theorem layer3_eq_hNext (x0 : (⟨S20000x64, .f32⟩ : BufTy).Contents (Elt Ideal)) (x1 : (⟨S2x640000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v54 (F := Ideal) x0 x1 x3 x4 x5 x6 x7 x8 x9 x10 x11 = Cert.Model.hNext (val_main_v37 (F := Ideal) x0 x1 x3 x4 x5 x6 x7 x8) x1 x9 x10 x11 := by
  funext i
  obtain ⟨n, j, rfl⟩ : ∃ (n : Fin 20000) (j : Fin 128), i = ix2 n j := ⟨i 0, i 1, eq_ix2 i⟩
  have hl : ∀ k : Fin 128, lidx_main_v48 (ix2 n j) k = ix2 n k := fun k => funext fun a => Fin.ext (by match a with | ⟨0, _⟩ => rfl | ⟨1, _⟩ => rfl)
  have hr : ∀ k : Fin 128, ridx_main_v48 (ix2 n j) k = ix2 k j := fun k => funext fun a => Fin.ext (by match a with | ⟨0, _⟩ => rfl | ⟨1, _⟩ => rfl)
  have hl' : ∀ k : Fin 128, lidx_main_v52 (ix2 n j) k = ix2 n k := fun k => funext fun a => Fin.ext (by match a with | ⟨0, _⟩ => rfl | ⟨1, _⟩ => rfl)
  have hr' : ∀ k : Fin 128, ridx_main_v52 (ix2 n j) k = ix2 k j := fun k => funext fun a => Fin.ext (by match a with | ⟨0, _⟩ => rfl | ⟨1, _⟩ => rfl)
  have hb : idx_main_v49 (idx_main_v50 (ix2 n j)) = ix1 j := funext fun a => Fin.ext (by match a with | ⟨0, _⟩ => rfl)
  rw [val_main_v54_apply, val_main_v53_apply, val_main_v51_apply, val_main_v48_apply, val_main_v50_apply,
    val_main_v49_apply, val_main_v52_apply, val_main_call2_v0_apply, val_main_call2_cst_apply]
  simp only [hl, hr, hl', hr', hb, neighbourSum3_eq_agg128, Ideal.addf_def, Ideal.maximumf_def, Ideal.ofBits_def, Ideal.ofBits_zero_f32]
  generalize val_main_v37 (F := Ideal) x0 x1 x3 x4 x5 x6 x7 x8 = h
  rw [bias_first]
  rfl

/-! ## The pool -/

/-- The array the pool's scatter-add starts from is zero everywhere. -/
theorem poolStart_eq_zero (i : S128x128.Idx) : val_main_v55 (F := Ideal) i = 0 := by
  rw [val_main_v55_apply, val_main_cst_7_apply, Ideal.ofBits_def, Ideal.ofBits_zero_f32]

/-- The scatter-add of layer 3's rows at the graph ids is the pooled array of the graph ids. -/
theorem scatterPool_eq_pooled (x0 : (⟨S20000x64, .f32⟩ : BufTy).Contents (Elt Ideal)) (x1 : (⟨S2x640000, .i32⟩ : BufTy).Contents (Elt Ideal)) (x2 : (⟨S20000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v57 (F := Ideal) x0 x1 x2 x3 x4 x5 x6 x7 x8 x9 x10 x11 = Cert.Model.pooled x2 (val_main_v54 (F := Ideal) x0 x1 x3 x4 x5 x6 x7 x8 x9 x10 x11) := by
  unfold val_main_v57
  generalize val_main_v54 (F := Ideal) x0 x1 x3 x4 x5 x6 x7 x8 x9 x10 x11 = h
  have hidx : (fun n : Fin 20000 => val_main_v56 (F := Ideal) x2 (ix2 n 0)) = fun n => x2 (ix1 n) :=
    funext fun n => by
      rw [val_main_v56_apply]
      exact congrArg x2 (funext fun a => Fin.ext (by match a with | ⟨0, _⟩ => rfl))
  rw [Cert.ReferenceIdeal.RefPool.scatter_eq_pool _ _ _ poolStart_eq_zero, hidx]
  rfl

/-! ## Classifier and log-softmax -/

/-- The reference's scores are the shared classifier on the pooled array. -/
theorem scores_eq_logits (x0 : (⟨S20000x64, .f32⟩ : BufTy).Contents (Elt Ideal)) (x1 : (⟨S2x640000, .i32⟩ : BufTy).Contents (Elt Ideal)) (x2 : (⟨S20000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x10, .f32⟩ : BufTy).Contents (Elt Ideal)) (x13 : (⟨S10, .f32⟩ : BufTy).Contents (Elt Ideal)) :
    val_main_v61 (F := Ideal) x0 x1 x2 x3 x4 x5 x6 x7 x8 x9 x10 x11 x12 x13 = Cert.Model.logits (val_main_v57 (F := Ideal) x0 x1 x2 x3 x4 x5 x6 x7 x8 x9 x10 x11) x12 x13 := by
  unfold val_main_v61 val_main_v60 val_main_v59 val_main_v58
  generalize val_main_v57 (F := Ideal) x0 x1 x2 x3 x4 x5 x6 x7 x8 x9 x10 x11 = p
  unfold Cert.Model.logits
  rfl

/-- The reference's result is the shared row-wise log-softmax of its scores. -/
theorem output_eq_logSoftmax (x0 : (⟨S20000x64, .f32⟩ : BufTy).Contents (Elt Ideal)) (x1 : (⟨S2x640000, .i32⟩ : BufTy).Contents (Elt Ideal)) (x2 : (⟨S20000, .i32⟩ : BufTy).Contents (Elt Ideal)) (x3 : (⟨S64x128, .f32⟩ : BufTy).Contents (Elt Ideal)) (x4 : (⟨S128, .f32⟩ : BufTy).Contents (Elt Ideal)) (x5 : (⟨S64x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x10, .f32⟩ : BufTy).Contents (Elt Ideal)) (x13 : (⟨S10, .f32⟩ : BufTy).Contents (Elt Ideal)) :
    val_main_v62 (F := Ideal) x0 x1 x2 x3 x4 x5 x6 x7 x8 x9 x10 x11 x12 x13 = Cert.Model.logSoftmax (val_main_v61 (F := Ideal) x0 x1 x2 x3 x4 x5 x6 x7 x8 x9 x10 x11 x12 x13) := by
  unfold val_main_v62 val_main_call3_v10 val_main_call3_v9 val_main_call3_v8 val_main_call3_v7 val_main_call3_cst_1
    val_main_call3_v6 val_main_call3_v5 val_main_call3_v4 val_main_call3_v3 val_main_call3_v2 val_main_call3_v1
    val_main_call3_cst_0 val_main_call3_v0 val_main_call3_cst
  generalize val_main_v61 (F := Ideal) x0 x1 x2 x3 x4 x5 x6 x7 x8 x9 x10 x11 x12 x13 = z
  unfold Cert.Model.logSoftmax Cert.Model.shifted
  rfl

/-! ## End to end -/

variable (m : (ℓ : Loc nD τ sig) → Buf (Elt Ideal) ℓ)

/-- The reference's result term is the network of its arguments: each layer's relu of `(agg · wrel + b) + x · wroot` is
    the layer's activations (the bias moved past the root term), the scatter-add over the graph ids the pool, the rest the
    same host operations. -/
theorem result (c : Dev nD) :
    Cert.ReferenceIdeal.Value.res_main_v62 (F := Ideal) m c
      = (Cert.Model.net
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13)) : FVec Ideal S128x10 .f32) := by
  rw [Cert.ReferenceIdeal.Read.val_main_v62_eq]
  generalize m ((c.tc : Thread nD τ).loc main_arg0) = x0,
    m ((c.tc : Thread nD τ).loc main_arg1) = x1,
    m ((c.tc : Thread nD τ).loc main_arg2) = x2,
    m ((c.tc : Thread nD τ).loc main_arg3) = x3,
    m ((c.tc : Thread nD τ).loc main_arg4) = x4,
    m ((c.tc : Thread nD τ).loc main_arg5) = x5,
    m ((c.tc : Thread nD τ).loc main_arg6) = x6,
    m ((c.tc : Thread nD τ).loc main_arg7) = x7,
    m ((c.tc : Thread nD τ).loc main_arg8) = x8,
    m ((c.tc : Thread nD τ).loc main_arg9) = x9,
    m ((c.tc : Thread nD τ).loc main_arg10) = x10,
    m ((c.tc : Thread nD τ).loc main_arg11) = x11,
    m ((c.tc : Thread nD τ).loc main_arg12) = x12,
    m ((c.tc : Thread nD τ).loc main_arg13) = x13
  rw [output_eq_logSoftmax, scores_eq_logits, scatterPool_eq_pooled, layer3_eq_hNext, layer2_eq_hNext, layer1_eq_h1]
  rfl

end Cert.ReferenceIdeal.RefValue

end
-- ==== Proof.lean ====
/-
  The certificate: a three-layer graph-convolution network with a global add-pool and a log-softmax classifier, the
  kernel's program against its jnp reference, equal as extended reals at every input.

  Both programs compute the same network (Proof/Model.lean).  The kernel's three layer regions tile the 20000 nodes in
  ten blocks of 2000 and compute `relu((agg · wrel + x · wroot) + b)` per block; the reference computes
  `relu((agg · wrel + b) + x · wroot)` on whole arrays — the same extended real, addition being commutative and
  associative there.  The kernel's pool region accumulates, block by block from zero, a one-hot matrix product
  `∑ₙ [batch n = g] · h[n, j]`; the reference's scatter-add sums exactly the rows whose graph id is `g`.  The gathers,
  the scatter-adds of the neighbourhood sums, the classifier and the log-softmax are the same host operations in both.
  No step uses finiteness of the inputs: nothing is distributed, cancelled or moved across a sum.
  The three frames: the two kernel programs' are the generated frame certificates; the reference's is its generated
  run with the result dropped.  `preserves` is `True`: the idealization rewrote nothing.
-/
import proofs.«427853_j39633958208177_1_alg».proof.Defs
import proofs.«427853_j39633958208177_1_alg».proof.Proof.Gen.Kernel
import proofs.«427853_j39633958208177_1_alg».proof.Proof.Gen.Kernel.Skeleton
import proofs.«427853_j39633958208177_1_alg».proof.Proof.Gen.Kernel.Launch
import proofs.«427853_j39633958208177_1_alg».proof.Proof.Gen.Kernel.Points
import proofs.«427853_j39633958208177_1_alg».proof.Proof.Gen.Kernel.Frame
import proofs.«427853_j39633958208177_1_alg».proof.Proof.Gen.KernelIdeal
import proofs.«427853_j39633958208177_1_alg».proof.Proof.Gen.KernelIdeal.Skeleton
import proofs.«427853_j39633958208177_1_alg».proof.Proof.Gen.KernelIdeal.Launch
import proofs.«427853_j39633958208177_1_alg».proof.Proof.Gen.KernelIdeal.Points
import proofs.«427853_j39633958208177_1_alg».proof.Proof.Gen.KernelIdeal.Frame
import proofs.«427853_j39633958208177_1_alg».proof.Proof.Gen.ReferenceIdeal
import proofs.«427853_j39633958208177_1_alg».proof.Proof.Gen.Pre_finite_inputs
import proofs.«427853_j39633958208177_1_alg».proof.Proof.Gen.ReferenceIdeal.Run
import proofs.«427853_j39633958208177_1_alg».proof.Proof.Gen.ReferenceIdeal.Read
import proofs.«427853_j39633958208177_1_alg».proof.Proof.KRun
import proofs.«427853_j39633958208177_1_alg».proof.Proof.KernelChain
import proofs.«427853_j39633958208177_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the fourteen arguments both programs end with the network of those arguments in their
    result buffers. -/
theorem algebraic : Cert.algebraic_KernelIdeal_ReferenceIdeal := by
  intro m ρ m' ρ' _ hagree
  refine ⟨fun c => (Cert.Model.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) : FVec Ideal Cert.KernelIdeal.S128x10 .f32), ?_, ?_⟩
  · exact (θ_run (Cert.KernelIdeal.defs (F := Ideal)) _ _).mono
      (fun _ h c => ⟨(h c).1.trans (Cert.KernelIdeal.ChainValue.result m ρ c), (h c).2⟩)
      (Cert.KernelIdeal.ValueRun.run (F := Ideal) m ρ)
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.RefValue.result m' c, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
